-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S128x14336 : Shape := ⟨2, ![128, 14336]⟩
abbrev S256x14336 : Shape := ⟨2, ![256, 14336]⟩
abbrev S32x14336 : Shape := ⟨2, ![32, 14336]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S32x14336 : S_.BroadcastsInDim S32x14336 (![] : Fin 0 → Fin S32x14336.rank)
  reducesTo_S32x14336_S_d0_1 : S32x14336.ReducesTo [0, 1] S_

variable [Facts]

def fn {F : FTy → Type} [FloatOps F] (main_arg0 : FVec F S16x4096 .f32) (main_arg1 : IVec S128x14336 32) (main_arg2 : IVec S256x14336 32) (main_arg3 : FVec F S32x14336 .f32) (main_arg4 : FVec F S32x14336 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S32x14336 .f32 := Host.absf main_arg3
  let main_cst_0 : FVec F S_ .f32 := constant S_ .f32 0x7F800000#32
  let main_v5 : FVec F S32x14336 .f32 := broadcastInDim S32x14336 ![] bcast_S_S32x14336 main_cst_0
  let main_v6 : IVec S32x14336 1 := cmpf .olt main_v4 main_v5
  let main_c_1 : IVec S_ 1 := constantI S_ 1 1#1
  let main_v7 : IVec S_ 1 := (fun x v => Host.reduce IntOp.andi x v reducesTo_S32x14336_S_d0_1 h_S_) main_v6 main_c_1
  let main_v8 : IVec S_ 1 := andi main_v3 main_v7
  let main_v9 : FVec F S32x14336 .f32 := Host.absf main_arg4
  let main_cst_2 : FVec F S_ .f32 := constant S_ .f32 0x7F800000#32
  let main_v10 : FVec F S32x14336 .f32 := broadcastInDim S32x14336 ![] bcast_S_S32x14336 main_cst_2
  let main_v11 : IVec S32x14336 1 := cmpf .olt main_v9 main_v10
  let main_c_3 : IVec S_ 1 := constantI S_ 1 1#1
  let main_v12 : IVec S_ 1 := (fun x v => Host.reduce IntOp.andi x v reducesTo_S32x14336_S_d0_1 h_S_) main_v11 main_c_3
  let main_v13 : IVec S_ 1 := andi main_v8 main_v12
  main_v13
-- ==== Kernel.lean ====
abbrev S16x4096 : Shape := ⟨2, ![16, 4096]⟩
abbrev S128x14336 : Shape := ⟨2, ![128, 14336]⟩
abbrev S256x14336 : Shape := ⟨2, ![256, 14336]⟩
abbrev S32x14336 : Shape := ⟨2, ![32, 14336]⟩
abbrev S16x14336 : Shape := ⟨2, ![16, 14336]⟩
abbrev S16x1024 : Shape := ⟨2, ![16, 1024]⟩
abbrev S32x1792 : Shape := ⟨2, ![32, 1792]⟩
abbrev S64x1792 : Shape := ⟨2, ![64, 1792]⟩
abbrev S8x1792 : Shape := ⟨2, ![8, 1792]⟩
abbrev S16x1792 : Shape := ⟨2, ![16, 1792]⟩
abbrev S32x1 : Shape := ⟨2, ![32, 1]⟩
abbrev S16x1 : Shape := ⟨2, ![16, 1]⟩
abbrev S4x1792 : Shape := ⟨2, ![4, 1792]⟩
abbrev S1x1792 : Shape := ⟨2, ![1, 1792]⟩
abbrev S128x1792 : Shape := ⟨2, ![128, 1792]⟩
abbrev S16x128 : Shape := ⟨2, ![16, 128]⟩
abbrev S16 : Shape := ⟨1, ![16]⟩

abbrev nBuf : Space → Nat
  | .hbm => 6
  | .vmem => 13
  | .smem => 0
  | _ => 0

abbrev bufTy : (tb : Table) → Fin (tcTables nBuf tb) → BufTy
  | .hbm, ⟨0, _⟩ => ⟨S16x4096, .f32⟩
  | .hbm, ⟨1, _⟩ => ⟨S128x14336, .i32⟩
  | .hbm, ⟨2, _⟩ => ⟨S256x14336, .i32⟩
  | .hbm, ⟨3, _⟩ => ⟨S32x14336, .f32⟩
  | .hbm, ⟨4, _⟩ => ⟨S32x14336, .f32⟩
  | .hbm, ⟨5, _⟩ => ⟨S16x14336, .f32⟩
  | .local _ .vmem, ⟨0, _⟩ => ⟨S16x1024, .f32⟩
  | .local _ .vmem, ⟨1, _⟩ => ⟨S16x1024, .f32⟩
  | .local _ .vmem, ⟨2, _⟩ => ⟨S32x1792, .i32⟩
  | .local _ .vmem, ⟨3, _⟩ => ⟨S32x1792, .i32⟩
  | .local _ .vmem, ⟨4, _⟩ => ⟨S64x1792, .i32⟩
  | .local _ .vmem, ⟨5, _⟩ => ⟨S64x1792, .i32⟩
  | .local _ .vmem, ⟨6, _⟩ => ⟨S8x1792, .f32⟩
  | .local _ .vmem, ⟨7, _⟩ => ⟨S8x1792, .f32⟩
  | .local _ .vmem, ⟨8, _⟩ => ⟨S8x1792, .f32⟩
  | .local _ .vmem, ⟨9, _⟩ => ⟨S8x1792, .f32⟩
  | .local _ .vmem, ⟨10, _⟩ => ⟨S16x1792, .f32⟩
  | .local _ .vmem, ⟨11, _⟩ => ⟨S16x1792, .f32⟩
  | .local _ .vmem, ⟨12, _⟩ => ⟨S16x1792, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_199 : BitVec 32 := 3#32
  let v823 : BitVec 1 := Scalar.cmpi .eq arg1 c3_i32_199
  let v824 : BitVec 32 := Scalar.extui v823
  let c0_i32_200 : BitVec 32 := 0#32
  let v825 : BitVec 1 := Scalar.cmpi .ne v824 c0_i32_200
  v825

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1792 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1792 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16x1792_S16x1792_0_0 : ∀ a, (![0, 0] : Fin 2 → Nat) a + S16x1792.size a ≤ S16x1792.size a
  h_S16x1792 : 0 < S16x1792.numel
  shapeCasts_S16x1792_S16x1792 : S16x1792.ShapeCasts S16x1792
  inb_S16x1024_S16x1024_0_0 : ∀ a, (![0, 0] : Fin 2 → Nat) a + S16x1024.size a ≤ S16x1024.size a
  h_S16x1024 : 0 < S16x1024.numel
  bitsLt_bf16_f32 : FTy.bits .bf16 < FTy.bits .f32
  iota_S32x1_d0_w32 : S32x1.Iotas .tc 32 [0]
  shapeCasts_S32x1_S32x1 : S32x1.ShapeCasts S32x1
  broadcasts_S32x1_S32x1792 : S32x1.Broadcasts S32x1792
  iota_S16x1_d0_w32 : S16x1.Iotas .tc 32 [0]
  shapeCasts_S16x1_S16x1 : S16x1.ShapeCasts S16x1
  broadcasts_S16x1_S16x1792 : S16x1.Broadcasts S16x1792
  inb_S32x1792_S4x1792_0_0 : ∀ a, (![0, 0] : Fin 2 → Nat) a + S4x1792.size a ≤ S32x1792.size a
  h_S4x1792 : 0 < S4x1792.numel
  inb_S64x1792_S8x1792_0_0 : ∀ a, (![0, 0] : Fin 2 → Nat) a + S8x1792.size a ≤ S64x1792.size a
  h_S8x1792 : 0 < S8x1792.numel
  slices_S4x1792_o0_0_S1x1792 : S4x1792.Slices ![0, 0] S1x1792
  shapeCasts_S1x1792_S1x1792 : S1x1792.ShapeCasts S1x1792
  broadcasts_S1x1792_S32x1792 : S1x1792.Broadcasts S32x1792
  slices_S4x1792_o1_0_S1x1792 : S4x1792.Slices ![1, 0] S1x1792
  slices_S4x1792_o2_0_S1x1792 : S4x1792.Slices ![2, 0] S1x1792
  slices_S4x1792_o3_0_S1x1792 : S4x1792.Slices ![3, 0] S1x1792
  concatenates_S32x1792_S32x1792_S32x1792_S32x1792_S128x1792_d0 : Shape.Concatenates [S32x1792, S32x1792, S32x1792, S32x1792] S128x1792 0
  slices_S8x1792_o0_0_S1x1792 : S8x1792.Slices ![0, 0] S1x1792
  broadcasts_S1x1792_S16x1792 : S1x1792.Broadcasts S16x1792
  slices_S8x1792_o1_0_S1x1792 : S8x1792.Slices ![1, 0] S1x1792
  slices_S8x1792_o2_0_S1x1792 : S8x1792.Slices ![2, 0] S1x1792
  slices_S8x1792_o3_0_S1x1792 : S8x1792.Slices ![3, 0] S1x1792
  slices_S8x1792_o4_0_S1x1792 : S8x1792.Slices ![4, 0] S1x1792
  slices_S8x1792_o5_0_S1x1792 : S8x1792.Slices ![5, 0] S1x1792
  slices_S8x1792_o6_0_S1x1792 : S8x1792.Slices ![6, 0] S1x1792
  slices_S8x1792_o7_0_S1x1792 : S8x1792.Slices ![7, 0] S1x1792
  concatenates_S16x1792_S16x1792_S16x1792_S16x1792_S16x1792_S16x1792_S16x1792_S16x1792_S128x1792_d0 : Shape.Concatenates [S16x1792, S16x1792, S16x1792, S16x1792, S16x1792, S16x1792, S16x1792, S16x1792] S128x1792 0
  slices_S16x1024_o0_0_S16x128 : S16x1024.Slices ![0, 0] S16x128
  inb_S8x1792_S1x1792_0_0 : ∀ a, (![0, 0] : Fin 2 → Nat) a + S1x1792.size a ≤ S8x1792.size a
  h_S1x1792 : 0 < S1x1792.numel
  reduces_S16x128_S16 : S16x128.Reduces [1] S16
  shapeCasts_S16_S16x1 : S16.ShapeCasts S16x1
  inb_S32x1792_S4x1792_4_0 : ∀ a, (![4, 0] : Fin 2 → Nat) a + S4x1792.size a ≤ S32x1792.size a
  inb_S64x1792_S8x1792_8_0 : ∀ a, (![8, 0] : Fin 2 → Nat) a + S8x1792.size a ≤ S64x1792.size a
  slices_S16x1024_o0_128_S16x128 : S16x1024.Slices ![0, 128] S16x128
  inb_S8x1792_S1x1792_1_0 : ∀ a, (![1, 0] : Fin 2 → Nat) a + S1x1792.size a ≤ S8x1792.size a
  inb_S32x1792_S4x1792_8_0 : ∀ a, (![8, 0] : Fin 2 → Nat) a + S4x1792.size a ≤ S32x1792.size a
  inb_S64x1792_S8x1792_16_0 : ∀ a, (![16, 0] : Fin 2 → Nat) a + S8x1792.size a ≤ S64x1792.size a
  slices_S16x1024_o0_256_S16x128 : S16x1024.Slices ![0, 256] S16x128
  inb_S8x1792_S1x1792_2_0 : ∀ a, (![2, 0] : Fin 2 → Nat) a + S1x1792.size a ≤ S8x1792.size a
  inb_S32x1792_S4x1792_12_0 : ∀ a, (![12, 0] : Fin 2 → Nat) a + S4x1792.size a ≤ S32x1792.size a
  inb_S64x1792_S8x1792_24_0 : ∀ a, (![24, 0] : Fin 2 → Nat) a + S8x1792.size a ≤ S64x1792.size a
  slices_S16x1024_o0_384_S16x128 : S16x1024.Slices ![0, 384] S16x128
  inb_S8x1792_S1x1792_3_0 : ∀ a, (![3, 0] : Fin 2 → Nat) a + S1x1792.size a ≤ S8x1792.size a
  inb_S32x1792_S4x1792_16_0 : ∀ a, (![16, 0] : Fin 2 → Nat) a + S4x1792.size a ≤ S32x1792.size a
  inb_S64x1792_S8x1792_32_0 : ∀ a, (![32, 0] : Fin 2 → Nat) a + S8x1792.size a ≤ S64x1792.size a
  slices_S16x1024_o0_512_S16x128 : S16x1024.Slices ![0, 512] S16x128
  inb_S8x1792_S1x1792_4_0 : ∀ a, (![4, 0] : Fin 2 → Nat) a + S1x1792.size a ≤ S8x1792.size a
  inb_S32x1792_S4x1792_20_0 : ∀ a, (![20, 0] : Fin 2 → Nat) a + S4x1792.size a ≤ S32x1792.size a
  inb_S64x1792_S8x1792_40_0 : ∀ a, (![40, 0] : Fin 2 → Nat) a + S8x1792.size a ≤ S64x1792.size a
  slices_S16x1024_o0_640_S16x128 : S16x1024.Slices ![0, 640] S16x128
  inb_S8x1792_S1x1792_5_0 : ∀ a, (![5, 0] : Fin 2 → Nat) a + S1x1792.size a ≤ S8x1792.size a
  inb_S32x1792_S4x1792_24_0 : ∀ a, (![24, 0] : Fin 2 → Nat) a + S4x1792.size a ≤ S32x1792.size a
  inb_S64x1792_S8x1792_48_0 : ∀ a, (![48, 0] : Fin 2 → Nat) a + S8x1792.size a ≤ S64x1792.size a
  slices_S16x1024_o0_768_S16x128 : S16x1024.Slices ![0, 768] S16x128
  inb_S8x1792_S1x1792_6_0 : ∀ a, (![6, 0] : Fin 2 → Nat) a + S1x1792.size a ≤ S8x1792.size a
  inb_S32x1792_S4x1792_28_0 : ∀ a, (![28, 0] : Fin 2 → Nat) a + S4x1792.size a ≤ S32x1792.size a
  inb_S64x1792_S8x1792_56_0 : ∀ a, (![56, 0] : Fin 2 → Nat) a + S8x1792.size a ≤ S64x1792.size a
  slices_S16x1024_o0_896_S16x128 : S16x1024.Slices ![0, 896] S16x128
  inb_S8x1792_S1x1792_7_0 : ∀ a, (![7, 0] : Fin 2 → Nat) a + S1x1792.size a ≤ S8x1792.size a
  dot_S16x128_S128x1792_S16x1792_1_0_0_1_n_n_wf : DotDims.WF S16x128 S128x1792 S16x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x4096.size a
  hwx0_0 : ∀ i : grid0.Coords, EltTy.bits .f32 = 32 ∨ (Rect.block (s := S16x4096) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1792.size a ≤ S128x14336.size a
  hwx0_1 : ∀ i : grid0.Coords, EltTy.bits .i32 = 32 ∨ (Rect.block (s := S128x14336) S32x1792.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1792.size a ≤ S256x14336.size a
  hwx0_2 : ∀ i : grid0.Coords, EltTy.bits .i32 = 32 ∨ (Rect.block (s := S256x14336) S64x1792.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1792.size a ≤ S32x14336.size a
  hwx0_3 : ∀ i : grid0.Coords, EltTy.bits .f32 = 32 ∨ (Rect.block (s := S32x14336) S8x1792.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1792.size a ≤ S32x14336.size a
  hwx0_4 : ∀ i : grid0.Coords, EltTy.bits .f32 = 32 ∨ (Rect.block (s := S32x14336) S8x1792.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1792.size a ≤ S16x14336.size a
  hwx0_5 : ∀ i : grid0.Coords, EltTy.bits .f32 = 32 ∨ (Rect.block (s := S16x14336) S16x1792.size (cc0_transform_5 i) (hinb0_5 i)).WholeWords (EltTy.packing .f32)

variable [Facts₀]

def dot_S16x128_S128x1792_S16x1792_1_0_0_1_n_n : DotDims S16x128 S128x1792 S16x1792 where
  lhsContracting := [1]
  rhsContracting := [0]
  lhsNonContracting := [0]
  rhsNonContracting := [1]
  lhsBatch := []
  rhsBatch := []
  wf := dot_S16x128_S128x1792_S16x1792_1_0_0_1_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1792.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1792.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x1792.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x4096 : Shape := ⟨2, ![16, 4096]⟩
abbrev S128x14336 : Shape := ⟨2, ![128, 14336]⟩
abbrev S256x14336 : Shape := ⟨2, ![256, 14336]⟩
abbrev S32x14336 : Shape := ⟨2, ![32, 14336]⟩
abbrev S32 : Shape := ⟨1, ![32]⟩
abbrev S_ : Shape := ⟨0, ![]⟩
abbrev S1x32x1 : Shape := ⟨3, ![1, 32, 1]⟩
abbrev S128x1x14336 : Shape := ⟨3, ![128, 1, 14336]⟩
abbrev S128x32x14336 : Shape := ⟨3, ![128, 32, 14336]⟩
abbrev S4096x14336 : Shape := ⟨2, ![4096, 14336]⟩
abbrev S16 : Shape := ⟨1, ![16]⟩
abbrev S1x16x1 : Shape := ⟨3, ![1, 16, 1]⟩
abbrev S256x1x14336 : Shape := ⟨3, ![256, 1, 14336]⟩
abbrev S256x16x14336 : Shape := ⟨3, ![256, 16, 14336]⟩
abbrev S32x128x14336 : Shape := ⟨3, ![32, 128, 14336]⟩
abbrev S16x14336 : Shape := ⟨2, ![16, 14336]⟩

abbrev nBuf : Space → Nat
  | .hbm => 43
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S128x14336, .i32⟩
  | .hbm, ⟨2, _⟩ => ⟨S256x14336, .i32⟩
  | .hbm, ⟨3, _⟩ => ⟨S32x14336, .f32⟩
  | .hbm, ⟨4, _⟩ => ⟨S32x14336, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S1x32x1, .i32⟩
  | .hbm, ⟨10, _⟩ => ⟨S128x1x14336, .i32⟩
  | .hbm, ⟨11, _⟩ => ⟨S128x32x14336, .i32⟩
  | .hbm, ⟨12, _⟩ => ⟨S128x32x14336, .i32⟩
  | .hbm, ⟨13, _⟩ => ⟨S128x32x14336, .i32⟩
  | .hbm, ⟨14, _⟩ => ⟨S_, .i32⟩
  | .hbm, ⟨15, _⟩ => ⟨S128x32x14336, .i32⟩
  | .hbm, ⟨16, _⟩ => ⟨S128x32x14336, .i32⟩
  | .hbm, ⟨17, _⟩ => ⟨S4096x14336, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S1x16x1, .i32⟩
  | .hbm, ⟨23, _⟩ => ⟨S256x1x14336, .i32⟩
  | .hbm, ⟨24, _⟩ => ⟨S256x16x14336, .i32⟩
  | .hbm, ⟨25, _⟩ => ⟨S256x16x14336, .i32⟩
  | .hbm, ⟨26, _⟩ => ⟨S256x16x14336, .i32⟩
  | .hbm, ⟨27, _⟩ => ⟨S_, .i32⟩
  | .hbm, ⟨28, _⟩ => ⟨S256x16x14336, .i32⟩
  | .hbm, ⟨29, _⟩ => ⟨S256x16x14336, .i32⟩
  | .hbm, ⟨30, _⟩ => ⟨S4096x14336, .i32⟩
  | .hbm, ⟨31, _⟩ => ⟨S_, .i32⟩
  | .hbm, ⟨32, _⟩ => ⟨S4096x14336, .i32⟩
  | .hbm, ⟨33, _⟩ => ⟨S4096x14336, .i32⟩
  | .hbm, ⟨34, _⟩ => ⟨S4096x14336, .i32⟩
  | .hbm, ⟨35, _⟩ => ⟨S4096x14336, .f32⟩
  | .hbm, ⟨36, _⟩ => ⟨S32x128x14336, .f32⟩
  | .hbm, ⟨37, _⟩ => ⟨S4096x14336, .f32⟩
  | .hbm, ⟨38, _⟩ => ⟨S32x128x14336, .f32⟩
  | .hbm, ⟨39, _⟩ => ⟨S4096x14336, .f32⟩
  | .hbm, ⟨40, _⟩ => ⟨S4096x14336, .f32⟩
  | .hbm, ⟨41, _⟩ => ⟨S4096x14336, .f32⟩
  | .hbm, ⟨42, _⟩ => ⟨S16x14336, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S1x32x1_1 : S32.BroadcastsInDim S1x32x1 (![1] : Fin 1 → Fin S1x32x1.rank)
  bcast_S128x14336_S128x1x14336_0_2 : S128x14336.BroadcastsInDim S128x1x14336 (![0, 2] : Fin 2 → Fin S128x1x14336.rank)
  bcast_S128x1x14336_S128x32x14336_0_1_2 : S128x1x14336.BroadcastsInDim S128x32x14336 (![0, 1, 2] : Fin 3 → Fin S128x32x14336.rank)
  bcast_S1x32x1_S128x32x14336_0_1_2 : S1x32x1.BroadcastsInDim S128x32x14336 (![0, 1, 2] : Fin 3 → Fin S128x32x14336.rank)
  bcast_S_S128x32x14336 : S_.BroadcastsInDim S128x32x14336 (![] : Fin 0 → Fin S128x32x14336.rank)
  shapeCasts_S128x32x14336_S4096x14336 : S128x32x14336.ShapeCasts S4096x14336
  bcast_S_S16 : S_.BroadcastsInDim S16 (![] : Fin 0 → Fin S16.rank)
  bcast_S16_S1x16x1_1 : S16.BroadcastsInDim S1x16x1 (![1] : Fin 1 → Fin S1x16x1.rank)
  bcast_S256x14336_S256x1x14336_0_2 : S256x14336.BroadcastsInDim S256x1x14336 (![0, 2] : Fin 2 → Fin S256x1x14336.rank)
  bcast_S256x1x14336_S256x16x14336_0_1_2 : S256x1x14336.BroadcastsInDim S256x16x14336 (![0, 1, 2] : Fin 3 → Fin S256x16x14336.rank)
  bcast_S1x16x1_S256x16x14336_0_1_2 : S1x16x1.BroadcastsInDim S256x16x14336 (![0, 1, 2] : Fin 3 → Fin S256x16x14336.rank)
  bcast_S_S256x16x14336 : S_.BroadcastsInDim S256x16x14336 (![] : Fin 0 → Fin S256x16x14336.rank)
  shapeCasts_S256x16x14336_S4096x14336 : S256x16x14336.ShapeCasts S4096x14336
  bcast_S_S4096x14336 : S_.BroadcastsInDim S4096x14336 (![] : Fin 0 → Fin S4096x14336.rank)
  bcast_S32x14336_S32x128x14336_0_2 : S32x14336.BroadcastsInDim S32x128x14336 (![0, 2] : Fin 2 → Fin S32x128x14336.rank)
  shapeCasts_S32x128x14336_S4096x14336 : S32x128x14336.ShapeCasts S4096x14336
  dot_S16x4096_S4096x14336_S16x14336_1_0_0_1_n_n_wf : DotDims.WF S16x4096 S4096x14336 S16x14336 [1] [0] [0] [1] [] []

variable [Facts₀]

def dot_S16x4096_S4096x14336_S16x14336_1_0_0_1_n_n : DotDims S16x4096 S4096x14336 S16x14336 where
  lhsContracting := [1]
  rhsContracting := [0]
  lhsNonContracting := [0]
  rhsNonContracting := [1]
  lhsBatch := []
  rhsBatch := []
  wf := dot_S16x4096_S4096x14336_S16x14336_1_0_0_1_n_n_wf

class Facts : Prop extends Facts₀ where

variable [Facts]
-- ==== Proof.Group.lean ====
/-
  One quantisation group of the kernel's body, as functions of what the body loads.

  A group is 128 weight rows. Its one-bit plane is 4 packed rows of words, its two-bit plane 8. A packed row is laid
  over 32 (or 16) rows and each copy shifted right by its row's position times the field width, then masked
  (`planeRow1`, `planeRow2`); the copies stacked are the plane's 128 rows (`plane1`, `plane2`). The code is the two-bit
  field shifted up one bit over the one-bit field. `update` is what the group adds to the accumulator: the slice of
  `x` under the group times the codes, scaled column by column, minus the slice's row sums times `zero · scale`.
-/
import proofs.«411462_j90409061580808_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Grp

open Cert.KernelIdeal Cert.KernelIdeal.Gen Idealize.ShloMosaic Idealize.ShloMosaic.ValueIdx

variable {F : FTy → Type} [FloatOps F]

/-- Row `p` of the one-bit plane's shift amounts is `p · 1`, in every column. -/
def shifts1 : IVec S32x1792 32 :=
  broadcastTo S32x1792 (shapeCast S32x1 (muli (iota .tc S32x1 32 [0] iota_S32x1_d0_w32) (broadcast S32x1 1#32)) shapeCasts_S32x1_S32x1) broadcasts_S32x1_S32x1792

/-- Row `p` of the two-bit plane's shift amounts is `p · 2`, in every column. -/
def shifts2 : IVec S16x1792 32 :=
  broadcastTo S16x1792 (shapeCast S16x1 (muli (iota .tc S16x1 32 [0] iota_S16x1_d0_w32) (broadcast S16x1 2#32)) shapeCasts_S16x1_S16x1) broadcasts_S16x1_S16x1792

/-- One packed row of the one-bit plane, laid over 32 rows, each shifted by its row's amount and masked to one bit. -/
def planeRow1 (sh : IVec S32x1792 32) (v : IVec S4x1792 32) (off : Fin 2 → Nat) (hs : S4x1792.Slices off S1x1792) : IVec S32x1792 32 :=
  andi (shrsi (broadcastTo S32x1792 (shapeCast S1x1792 (extractStridedSlice S1x1792 off v hs) shapeCasts_S1x1792_S1x1792) broadcasts_S1x1792_S32x1792) sh) (broadcast S32x1792 1#32)

/-- One packed row of the two-bit plane, laid over 16 rows, each shifted by its row's amount and masked to two bits. -/
def planeRow2 (sh : IVec S16x1792 32) (v : IVec S8x1792 32) (off : Fin 2 → Nat) (hs : S8x1792.Slices off S1x1792) : IVec S16x1792 32 :=
  andi (shrsi (broadcastTo S16x1792 (shapeCast S1x1792 (extractStridedSlice S1x1792 off v hs) shapeCasts_S1x1792_S1x1792) broadcasts_S1x1792_S16x1792) sh) (broadcast S16x1792 3#32)

/-- The one-bit plane of a group: its 4 packed rows unpacked and stacked. -/
def plane1 (sh : IVec S32x1792 32) (v : IVec S4x1792 32) : IVec S128x1792 32 :=
  concatenate S128x1792 0 [⟨S32x1792, planeRow1 sh v ![0, 0] slices_S4x1792_o0_0_S1x1792⟩, ⟨S32x1792, planeRow1 sh v ![1, 0] slices_S4x1792_o1_0_S1x1792⟩, ⟨S32x1792, planeRow1 sh v ![2, 0] slices_S4x1792_o2_0_S1x1792⟩, ⟨S32x1792, planeRow1 sh v ![3, 0] slices_S4x1792_o3_0_S1x1792⟩] concatenates_S32x1792_S32x1792_S32x1792_S32x1792_S128x1792_d0

/-- The two-bit plane of a group: its 8 packed rows unpacked and stacked. -/
def plane2 (sh : IVec S16x1792 32) (v : IVec S8x1792 32) : IVec S128x1792 32 :=
  concatenate S128x1792 0 [⟨S16x1792, planeRow2 sh v ![0, 0] slices_S8x1792_o0_0_S1x1792⟩, ⟨S16x1792, planeRow2 sh v ![1, 0] slices_S8x1792_o1_0_S1x1792⟩, ⟨S16x1792, planeRow2 sh v ![2, 0] slices_S8x1792_o2_0_S1x1792⟩, ⟨S16x1792, planeRow2 sh v ![3, 0] slices_S8x1792_o3_0_S1x1792⟩, ⟨S16x1792, planeRow2 sh v ![4, 0] slices_S8x1792_o4_0_S1x1792⟩, ⟨S16x1792, planeRow2 sh v ![5, 0] slices_S8x1792_o5_0_S1x1792⟩, ⟨S16x1792, planeRow2 sh v ![6, 0] slices_S8x1792_o6_0_S1x1792⟩, ⟨S16x1792, planeRow2 sh v ![7, 0] slices_S8x1792_o7_0_S1x1792⟩] concatenates_S16x1792_S16x1792_S16x1792_S16x1792_S16x1792_S16x1792_S16x1792_S16x1792_S128x1792_d0

/-- What one group adds to the accumulator `acc`: `X` is the tile of `x`, `off` the group's columns in it, `b1` and
    `b2` the group's planes, `sc` and `zr` its row of scales and of zero points. -/
def update (off : Fin 2 → Nat) (hs : S16x1024.Slices off S16x128) (X : FVec F S16x1024 .f32) (b1 b2 : IVec S128x1792 32)
    (sc zr : FVec F S1x1792 .f32) (acc : FVec F S16x1792 .f32) : FVec F S16x1792 .f32 :=
  shapeCast S16x1792
    (addf acc
      (subf
        (mulf
          (matmul dot_S16x128_S128x1792_S16x1792_1_0_0_1_n_n none
            (extractStridedSlice S16x128 off (truncf .bf16 X bitsLt_bf16_f32) hs)
            (sitofp .bf16 (ori (shli b2 (broadcast S128x1792 1#32)) b1) : FVec F S128x1792 .bf16)
            (constant S16x1792 .f32 0x00000000#32))
          (broadcastTo S16x1792 sc broadcasts_S1x1792_S16x1792))
        (mulf
          (broadcastTo S16x1792
            (shapeCast S16x1
              (shapeCast S16x1 (multiReduction .add [1] S16 (extractStridedSlice S16x128 off X hs) 0x00000000#32 reduces_S16x128_S16 (.inl rfl) rfl) shapeCasts_S16_S16x1)
              shapeCasts_S16x1_S16x1)
            broadcasts_S16x1_S16x1792)
          (broadcastTo S16x1792 (shapeCast S1x1792 (mulf zr sc) shapeCasts_S1x1792_S1x1792) broadcasts_S1x1792_S16x1792))))
    shapeCasts_S16x1792_S16x1792

/-! ## The generated payloads are these functions -/

theorem pay4_eq : k0_pay4 = shifts1 := rfl
theorem pay5_eq : k0_pay5 = shifts2 := rfl
theorem pay43_eq (sh : IVec S32x1792 32) (v : IVec S4x1792 32) : k0_pay43 (F := F) sh v = plane1 sh v := rfl
theorem pay71_eq (sh : IVec S16x1792 32) (v : IVec S8x1792 32) : k0_pay71 (F := F) sh v = plane2 sh v := rfl
theorem pay1_eq (X : FVec F S16x1024 .f32) (b1 b2 : IVec S128x1792 32) (sc zr : FVec F S1x1792 .f32) (acc : FVec F S16x1792 .f32) :
    k0_pay1 X (k0_pay3 X) b1 b2 1#32 sc zr acc = update ![0, 896] slices_S16x1024_o0_896_S16x128 X b1 b2 sc zr acc := rfl

end Cert.KernelIdeal.Grp

end
-- ==== Proof.Step.lean ====
/-
  One grid point of the kernel, as a function of its staged blocks.

  At a grid point the body visits the tile's eight groups in order; each adds its `update` to the accumulator it
  reads back from the scratch block. So whatever the scratch held before (`acc`: zeros at a tile's first point, what
  the point before left otherwise), after the point it holds `step … acc`, the eight updates applied one after the
  other; at a column block's last point the same value is copied to the output block.
-/
import proofs.«411462_j90409061580808_2_alg».proof.Proof.Gen.KernelIdeal.Frame
import proofs.«411462_j90409061580808_2_alg».proof.Proof.Group
import Idealize.ShloMosaic.Lib.Pipeline.Value

set_option maxRecDepth 16384

noncomputable section

namespace Cert.KernelIdeal.Grp

open Cert.KernelIdeal Cert.KernelIdeal.Gen Idealize.ShloMosaic Idealize.ShloMosaic.TcCoe Idealize.ShloMosaic.Tactic
open Idealize.SL.Sem

variable {F : FTy → Type} [FloatOps F]

/-- What one group adds, from the staged blocks: its columns `o` of the tile of `x`, its packed rows `o1` and `o2` of
    the two planes' blocks, its row `o3` of the scales' and of the zero points' blocks. -/
def groupStep (o : Fin 2 → Nat) (hs : S16x1024.Slices o S16x128)
    (o1 : Fin 2 → Nat) (inb1 : ∀ a, o1 a + S4x1792.size a ≤ S32x1792.size a)
    (o2 : Fin 2 → Nat) (inb2 : ∀ a, o2 a + S8x1792.size a ≤ S64x1792.size a)
    (o3 : Fin 2 → Nat) (inb3 : ∀ a, o3 a + S1x1792.size a ≤ S8x1792.size a)
    (x0 : FVec F S16x1024 .f32) (x1 : IVec S32x1792 32) (x2 : IVec S64x1792 32) (x3 x4 : FVec F S8x1792 .f32)
    (acc : FVec F S16x1792 .f32) : FVec F S16x1792 .f32 :=
  update o hs x0 (plane1 shifts1 (View.ld (Val := Elt F) (e' := .i32) x1 (Rect.unit o1 S4x1792.size inb1)))
    (plane2 shifts2 (View.ld (Val := Elt F) (e' := .i32) x2 (Rect.unit o2 S8x1792.size inb2)))
    (View.ld (Val := Elt F) (e' := .f32) x3 (Rect.unit o3 S1x1792.size inb3)) (View.ld (Val := Elt F) (e' := .f32) x4 (Rect.unit o3 S1x1792.size inb3)) acc

/-- One grid point's eight groups, one after the other, onto the accumulator. -/
def step (x0 : FVec F S16x1024 .f32) (x1 : IVec S32x1792 32) (x2 : IVec S64x1792 32) (x3 x4 : FVec F S8x1792 .f32)
    (acc : FVec F S16x1792 .f32) : FVec F S16x1792 .f32 :=
  (groupStep ![0, 896] slices_S16x1024_o0_896_S16x128 ![28, 0] inb_S32x1792_S4x1792_28_0 ![56, 0] inb_S64x1792_S8x1792_56_0 ![7, 0] inb_S8x1792_S1x1792_7_0 x0 x1 x2 x3 x4
    (groupStep ![0, 768] slices_S16x1024_o0_768_S16x128 ![24, 0] inb_S32x1792_S4x1792_24_0 ![48, 0] inb_S64x1792_S8x1792_48_0 ![6, 0] inb_S8x1792_S1x1792_6_0 x0 x1 x2 x3 x4
    (groupStep ![0, 640] slices_S16x1024_o0_640_S16x128 ![20, 0] inb_S32x1792_S4x1792_20_0 ![40, 0] inb_S64x1792_S8x1792_40_0 ![5, 0] inb_S8x1792_S1x1792_5_0 x0 x1 x2 x3 x4
    (groupStep ![0, 512] slices_S16x1024_o0_512_S16x128 ![16, 0] inb_S32x1792_S4x1792_16_0 ![32, 0] inb_S64x1792_S8x1792_32_0 ![4, 0] inb_S8x1792_S1x1792_4_0 x0 x1 x2 x3 x4
    (groupStep ![0, 384] slices_S16x1024_o0_384_S16x128 ![12, 0] inb_S32x1792_S4x1792_12_0 ![24, 0] inb_S64x1792_S8x1792_24_0 ![3, 0] inb_S8x1792_S1x1792_3_0 x0 x1 x2 x3 x4
    (groupStep ![0, 256] slices_S16x1024_o0_256_S16x128 ![8, 0] inb_S32x1792_S4x1792_8_0 ![16, 0] inb_S64x1792_S8x1792_16_0 ![2, 0] inb_S8x1792_S1x1792_2_0 x0 x1 x2 x3 x4
    (groupStep ![0, 128] slices_S16x1024_o0_128_S16x128 ![4, 0] inb_S32x1792_S4x1792_4_0 ![8, 0] inb_S64x1792_S8x1792_8_0 ![1, 0] inb_S8x1792_S1x1792_1_0 x0 x1 x2 x3 x4
    (groupStep ![0, 0] slices_S16x1024_o0_0_S16x128 ![0, 0] inb_S32x1792_S4x1792_0_0 ![0, 0] inb_S64x1792_S8x1792_0_0 ![0, 0] inb_S8x1792_S1x1792_0_0 x0 x1 x2 x3 x4
    acc))))))))

/-- The accumulator a tile's first point starts from: zeros. -/
def zeroAcc : FVec F S16x1792 .f32 :=
  shapeCast S16x1792 (broadcast S16x1792 (Scalar.ofBits .f32 0x00000000#32)) shapeCasts_S16x1792_S16x1792

theorem hz00 : (![0, 0] : Fin 2 → Nat) = fun _ => 0 := funext fun a => by fin_cases a <;> rfl

/-- A load of the whole block of what a LAST store of the whole block left, whatever the earlier stores: its payload. -/
theorem readCov_cons_whole {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## What each control case leaves -/

set_option maxHeartbeats 2000000 in
/-- A point that is neither a tile's first nor its last: the scratch goes from `xs0` to `step … xs0`. -/
theorem scratch_mid (c : Dev nD) (i : grid0.Coords) (arg2 : Memref sig .tc .vmem S16x1024 .f32) (harg2 : arg2.IsWhole) (arg3 : Memref sig .tc .vmem S32x1792 .i32) (harg3 : arg3.IsWhole) (arg4 : Memref sig .tc .vmem S64x1792 .i32) (harg4 : arg4.IsWhole) (arg5 : Memref sig .tc .vmem S8x1792 .f32) (harg5 : arg5.IsWhole) (arg6 : Memref sig .tc .vmem S8x1792 .f32) (harg6 : arg6.IsWhole) (arg7 : Memref sig .tc .vmem S16x1792 .f32) (harg7 : arg7.IsWhole) (arg8 : Memref sig .tc .vmem S16x1792 .f32) (harg8 : arg8.IsWhole) (hc0 : ¬cond0_0 i) (hc1 : ¬cond0_1 i)
    (x0 : Vec F S16x1024 .f32) (x1 : Vec F S32x1792 .i32) (x2 : Vec F S64x1792 .i32) (x3 : Vec F S8x1792 .f32) (x4 : Vec F S8x1792 .f32) (xs0 : Vec F S16x1792 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_cons_unit_zero (S := S16x1792) hz00]
  simp only [readCov_cons_whole (S := S16x1792) _ hz00, View.ld_unit_zero (S := S16x1792) hz00, View.readAt_eq_ld, harg2.read_unread, harg3.read_unread, harg4.read_unread, harg5.read_unread, harg6.read_unread, harg8.read_unread, View.ld_unit_zero (S := S16x1024) hz00]
  rfl

set_option maxHeartbeats 2000000 in
/-- A tile's first point: the scratch is zeroed first, so it ends at `step … 0`. -/
theorem scratch_first (c : Dev nD) (i : grid0.Coords) (arg2 : Memref sig .tc .vmem S16x1024 .f32) (harg2 : arg2.IsWhole) (arg3 : Memref sig .tc .vmem S32x1792 .i32) (harg3 : arg3.IsWhole) (arg4 : Memref sig .tc .vmem S64x1792 .i32) (harg4 : arg4.IsWhole) (arg5 : Memref sig .tc .vmem S8x1792 .f32) (harg5 : arg5.IsWhole) (arg6 : Memref sig .tc .vmem S8x1792 .f32) (harg6 : arg6.IsWhole) (arg7 : Memref sig .tc .vmem S16x1792 .f32) (harg7 : arg7.IsWhole) (arg8 : Memref sig .tc .vmem S16x1792 .f32) (harg8 : arg8.IsWhole) (hc0 : cond0_0 i) (hc1 : ¬cond0_1 i)
    (x0 : Vec F S16x1024 .f32) (x1 : Vec F S32x1792 .i32) (x2 : Vec F S64x1792 .i32) (x3 : Vec F S8x1792 .f32) (x4 : Vec F S8x1792 .f32) :
    sout0_A_0 c i arg2 harg2 arg3 harg3 arg4 harg4 arg5 harg5 arg6 harg6 arg7 harg7 arg8 harg8 hc0 hc1 x0 x1 x2 x3 x4 = step x0 x1 x2 x3 x4 zeroAcc := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S16x1792) hz00]
  simp only [readCov_cons_whole (S := S16x1792) _ hz00, View.ld_unit_zero (S := S16x1792) hz00, View.readAt_eq_ld, harg2.read_unread, harg3.read_unread, harg4.read_unread, harg5.read_unread, harg6.read_unread, harg8.read_unread, View.ld_unit_zero (S := S16x1024) hz00]
  rfl

set_option maxHeartbeats 2000000 in
/-- A tile's last point: the scratch goes from `xs0` to `step … xs0`, -/
theorem scratch_last (c : Dev nD) (i : grid0.Coords) (arg2 : Memref sig .tc .vmem S16x1024 .f32) (harg2 : arg2.IsWhole) (arg3 : Memref sig .tc .vmem S32x1792 .i32) (harg3 : arg3.IsWhole) (arg4 : Memref sig .tc .vmem S64x1792 .i32) (harg4 : arg4.IsWhole) (arg5 : Memref sig .tc .vmem S8x1792 .f32) (harg5 : arg5.IsWhole) (arg6 : Memref sig .tc .vmem S8x1792 .f32) (harg6 : arg6.IsWhole) (arg7 : Memref sig .tc .vmem S16x1792 .f32) (harg7 : arg7.IsWhole) (arg8 : Memref sig .tc .vmem S16x1792 .f32) (harg8 : arg8.IsWhole) (hc0 : ¬cond0_0 i) (hc1 : cond0_1 i)
    (x0 : Vec F S16x1024 .f32) (x1 : Vec F S32x1792 .i32) (x2 : Vec F S64x1792 .i32) (x3 : Vec F S8x1792 .f32) (x4 : Vec F S8x1792 .f32) (xs0 : Vec F S16x1792 .f32) :
    sout0_C_0 c i arg2 harg2 arg3 harg3 arg4 harg4 arg5 harg5 arg6 harg6 arg7 harg7 arg8 harg8 hc0 hc1 x0 x1 x2 x3 x4 xs0 = step x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_cons_unit_zero (S := S16x1792) hz00]
  simp only [readCov_cons_whole (S := S16x1792) _ hz00, View.ld_unit_zero (S := S16x1792) hz00, View.readAt_eq_ld, harg2.read_unread, harg3.read_unread, harg4.read_unread, harg5.read_unread, harg6.read_unread, harg8.read_unread, View.ld_unit_zero (S := S16x1024) hz00]
  rfl

set_option maxHeartbeats 2000000 in
/-- and the output block receives that same value. -/
theorem out_last (c : Dev nD) (i : grid0.Coords) (arg2 : Memref sig .tc .vmem S16x1024 .f32) (harg2 : arg2.IsWhole) (arg3 : Memref sig .tc .vmem S32x1792 .i32) (harg3 : arg3.IsWhole) (arg4 : Memref sig .tc .vmem S64x1792 .i32) (harg4 : arg4.IsWhole) (arg5 : Memref sig .tc .vmem S8x1792 .f32) (harg5 : arg5.IsWhole) (arg6 : Memref sig .tc .vmem S8x1792 .f32) (harg6 : arg6.IsWhole) (arg7 : Memref sig .tc .vmem S16x1792 .f32) (harg7 : arg7.IsWhole) (arg8 : Memref sig .tc .vmem S16x1792 .f32) (harg8 : arg8.IsWhole) (hc0 : ¬cond0_0 i) (hc1 : cond0_1 i)
    (x0 : Vec F S16x1024 .f32) (x1 : Vec F S32x1792 .i32) (x2 : Vec F S64x1792 .i32) (x3 : Vec F S8x1792 .f32) (x4 : Vec F S8x1792 .f32) (xs0 : Vec F S16x1792 .f32) :
    out0_C_5 c i arg2 harg2 arg3 harg3 arg4 harg4 arg5 harg5 arg6 harg6 arg7 harg7 arg8 harg8 hc0 hc1 x0 x1 x2 x3 x4 xs0 = step x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_cons_unit_zero (S := S16x1792) hz00]
  simp only [readCov_cons_whole (S := S16x1792) _ hz00, View.ld_unit_zero (S := S16x1792) hz00, View.readAt_eq_ld, harg2.read_unread, harg3.read_unread, harg4.read_unread, harg5.read_unread, harg6.read_unread, harg8.read_unread, View.ld_unit_zero (S := S16x1024) hz00]
  rfl

end Cert.KernelIdeal.Grp

end
-- ==== Proof.GroupAt.lean ====
/-
  The group's functions read at one entry.

  Row `j` of a plane comes from packed row `j / 32` (one-bit plane) or `j / 16` (two-bit plane) of the group's
  words, shifted by the amount of row `j % 32` (`j % 16`) and masked. Entry `(r, n)` of what a group adds is the dot
  product of row `r` of the slice of `x` with column `n` of the codes, times the column's scale, minus the row's sum
  times the column's `zero · scale`.
-/
import proofs.«411462_j90409061580808_2_alg».proof.Proof.Group

noncomputable section

open scoped BigOperators

namespace Cert.KernelIdeal.Grp

open Cert.KernelIdeal Cert.KernelIdeal.Gen Idealize.ShloMosaic Idealize.ShloMosaic.ValueIdx

theorem shifts1_apply (p : Fin 32) (n : Fin 1792) :
    shifts1 (ix2 p n) = IntOp.muli (BitVec.ofNat 32 p.val) 1#32 := by
  unfold shifts1
  refine (broadcastTo_apply _ _ (ix2 p n) (ix2 p (0 : Fin 1)) (fun a => ?_)).trans ?_
  · match a with
    | ⟨0, _⟩ => rfl
    | ⟨1, _⟩ => rfl
  · rw [shapeCast_self]
    show IntOp.muli (iota .tc S32x1 32 [0] iota_S32x1_d0_w32 (ix2 p 0)) 1#32 = _
    rw [iota_single_apply]

theorem shifts2_apply (p : Fin 16) (n : Fin 1792) :
    shifts2 (ix2 p n) = IntOp.muli (BitVec.ofNat 32 p.val) 2#32 := by
  unfold shifts2
  refine (broadcastTo_apply _ _ (ix2 p n) (ix2 p (0 : Fin 1)) (fun a => ?_)).trans ?_
  · match a with
    | ⟨0, _⟩ => rfl
    | ⟨1, _⟩ => rfl
  · rw [shapeCast_self]
    show IntOp.muli (iota .tc S16x1 32 [0] iota_S16x1_d0_w32 (ix2 p 0)) 2#32 = _
    rw [iota_single_apply]

/-- One packed row laid over 32 rows, read at an entry: packed row `q` of the words, shifted right by row `p`'s
    amount and masked to one bit. -/
theorem planeRow1_apply (sh : IVec S32x1792 32) (v : IVec S4x1792 32) (q : Nat) (hq : q < 4)
    (hs : S4x1792.Slices ![q, 0] S1x1792) (p : Fin 32) (n : Fin 1792) :
    planeRow1 sh v ![q, 0] hs (ix2 p n)
      = IntOp.andi (IntOp.shrsi .vector (v (ix2 (⟨q, hq⟩ : Fin 4) n)) (sh (ix2 p n))) 1#32 := by
  show IntOp.andi (IntOp.shrsi .vector
      (broadcastTo S32x1792 (shapeCast S1x1792 (extractStridedSlice S1x1792 ![q, 0] v hs) shapeCasts_S1x1792_S1x1792)
        broadcasts_S1x1792_S32x1792 (ix2 p n)) (sh (ix2 p n))) 1#32 = _
  have e : broadcastTo S32x1792 (shapeCast S1x1792 (extractStridedSlice S1x1792 ![q, 0] v hs) shapeCasts_S1x1792_S1x1792)
        broadcasts_S1x1792_S32x1792 (ix2 p n) = v (ix2 (⟨q, hq⟩ : Fin 4) n) := by
    -- the broadcast reads row 0 of the one-row slice, the identity cast is dropped, the slice reads row `q`
    refine (broadcastTo_apply _ _ (ix2 p n) (ix2 (0 : Fin 1) n) (fun a => ?_)).trans ?_
    · match a with
      | ⟨0, _⟩ => rfl
      | ⟨1, _⟩ => rfl
    · rw [shapeCast_self]
      refine extractStridedSlice_apply _ v hs (ix2 (0 : Fin 1) n) (ix2 (⟨q, hq⟩ : Fin 4) n) (fun a => ?_)
      match a with
      | ⟨0, _⟩ => show q = q + 0; omega
      | ⟨1, _⟩ => show n.val = 0 + n.val; omega
  rw [e]

/-- One packed row laid over 16 rows, read at an entry: packed row `q` of the words, shifted right by row `p`'s
    amount and masked to two bits. -/
theorem planeRow2_apply (sh : IVec S16x1792 32) (v : IVec S8x1792 32) (q : Nat) (hq : q < 8)
    (hs : S8x1792.Slices ![q, 0] S1x1792) (p : Fin 16) (n : Fin 1792) :
    planeRow2 sh v ![q, 0] hs (ix2 p n)
      = IntOp.andi (IntOp.shrsi .vector (v (ix2 (⟨q, hq⟩ : Fin 8) n)) (sh (ix2 p n))) 3#32 := by
  show IntOp.andi (IntOp.shrsi .vector
      (broadcastTo S16x1792 (shapeCast S1x1792 (extractStridedSlice S1x1792 ![q, 0] v hs) shapeCasts_S1x1792_S1x1792)
        broadcasts_S1x1792_S16x1792 (ix2 p n)) (sh (ix2 p n))) 3#32 = _
  have e : broadcastTo S16x1792 (shapeCast S1x1792 (extractStridedSlice S1x1792 ![q, 0] v hs) shapeCasts_S1x1792_S1x1792)
        broadcasts_S1x1792_S16x1792 (ix2 p n) = v (ix2 (⟨q, hq⟩ : Fin 8) n) := by
    -- the broadcast reads row 0 of the one-row slice, the identity cast is dropped, the slice reads row `q`
    refine (broadcastTo_apply _ _ (ix2 p n) (ix2 (0 : Fin 1) n) (fun a => ?_)).trans ?_
    · match a with
      | ⟨0, _⟩ => rfl
      | ⟨1, _⟩ => rfl
    · rw [shapeCast_self]
      refine extractStridedSlice_apply _ v hs (ix2 (0 : Fin 1) n) (ix2 (⟨q, hq⟩ : Fin 8) n) (fun a => ?_)
      match a with
      | ⟨0, _⟩ => show q = q + 0; omega
      | ⟨1, _⟩ => show n.val = 0 + n.val; omega
  rw [e]

theorem plane1_apply (sh : IVec S32x1792 32) (v : IVec S4x1792 32) (j : Fin 128) (n : Fin 1792) :
    plane1 sh v (ix2 j n)
      = IntOp.andi (IntOp.shrsi .vector (v (ix2 (⟨j.val / 32, by omega⟩ : Fin 4) n)) (sh (ix2 (⟨j.val % 32, by omega⟩ : Fin 32) n))) 1#32 := by
  unfold plane1
  -- row `j` lies in exactly one of the 4 stacked pieces of 32 rows; each case reads that piece at row `j - 32·c`
  obtain h | h | h | h : j.val < 32 ∨ (32 ≤ j.val ∧ j.val < 64) ∨ (64 ≤ j.val ∧ j.val < 96) ∨ 96 ≤ j.val := by omega
  · refine (concatenate_apply_piece (0 : Fin 2) _ _ (ix2 j n) 0 (by show (0 : Nat) < 4; omega) S32x1792 _ rfl rfl 0 (by simp)
      (ix2 (⟨j.val - 0, by omega⟩ : Fin 32) n) (fun b hb => ?_) ?_).trans ?_
    · match b with
      | ⟨0, _⟩ => exact absurd rfl hb
      | ⟨1, _⟩ => rfl
    · show 0 + (j.val - 0) = j.val; omega
    · rw [planeRow1_apply sh v 0 (by omega)]
      have e1 : (⟨0, by omega⟩ : Fin 4) = ⟨j.val / 32, by omega⟩ := Fin.ext (by show 0 = j.val / 32; omega)
      have e2 : (⟨j.val - 0, by omega⟩ : Fin 32) = ⟨j.val % 32, by omega⟩ := Fin.ext (by show j.val - 0 = j.val % 32; omega)
      rw [e1, e2]
  · refine (concatenate_apply_piece (0 : Fin 2) _ _ (ix2 j n) 1 (by show (1 : Nat) < 4; omega) S32x1792 _ rfl rfl 32 (by simp)
      (ix2 (⟨j.val - 32, by omega⟩ : Fin 32) n) (fun b hb => ?_) ?_).trans ?_
    · match b with
      | ⟨0, _⟩ => exact absurd rfl hb
      | ⟨1, _⟩ => rfl
    · show 32 + (j.val - 32) = j.val; omega
    · rw [planeRow1_apply sh v 1 (by omega)]
      have e1 : (⟨1, by omega⟩ : Fin 4) = ⟨j.val / 32, by omega⟩ := Fin.ext (by show 1 = j.val / 32; omega)
      have e2 : (⟨j.val - 32, by omega⟩ : Fin 32) = ⟨j.val % 32, by omega⟩ := Fin.ext (by show j.val - 32 = j.val % 32; omega)
      rw [e1, e2]
  · refine (concatenate_apply_piece (0 : Fin 2) _ _ (ix2 j n) 2 (by show (2 : Nat) < 4; omega) S32x1792 _ rfl rfl 64 (by simp)
      (ix2 (⟨j.val - 64, by omega⟩ : Fin 32) n) (fun b hb => ?_) ?_).trans ?_
    · match b with
      | ⟨0, _⟩ => exact absurd rfl hb
      | ⟨1, _⟩ => rfl
    · show 64 + (j.val - 64) = j.val; omega
    · rw [planeRow1_apply sh v 2 (by omega)]
      have e1 : (⟨2, by omega⟩ : Fin 4) = ⟨j.val / 32, by omega⟩ := Fin.ext (by show 2 = j.val / 32; omega)
      have e2 : (⟨j.val - 64, by omega⟩ : Fin 32) = ⟨j.val % 32, by omega⟩ := Fin.ext (by show j.val - 64 = j.val % 32; omega)
      rw [e1, e2]
  · refine (concatenate_apply_piece (0 : Fin 2) _ _ (ix2 j n) 3 (by show (3 : Nat) < 4; omega) S32x1792 _ rfl rfl 96 (by simp)
      (ix2 (⟨j.val - 96, by omega⟩ : Fin 32) n) (fun b hb => ?_) ?_).trans ?_
    · match b with
      | ⟨0, _⟩ => exact absurd rfl hb
      | ⟨1, _⟩ => rfl
    · show 96 + (j.val - 96) = j.val; omega
    · rw [planeRow1_apply sh v 3 (by omega)]
      have e1 : (⟨3, by omega⟩ : Fin 4) = ⟨j.val / 32, by omega⟩ := Fin.ext (by show 3 = j.val / 32; omega)
      have e2 : (⟨j.val - 96, by omega⟩ : Fin 32) = ⟨j.val % 32, by omega⟩ := Fin.ext (by show j.val - 96 = j.val % 32; omega)
      rw [e1, e2]

theorem plane2_apply (sh : IVec S16x1792 32) (v : IVec S8x1792 32) (j : Fin 128) (n : Fin 1792) :
    plane2 sh v (ix2 j n)
      = IntOp.andi (IntOp.shrsi .vector (v (ix2 (⟨j.val / 16, by omega⟩ : Fin 8) n)) (sh (ix2 (⟨j.val % 16, by omega⟩ : Fin 16) n))) 3#32 := by
  unfold plane2
  -- row `j` lies in exactly one of the 8 stacked pieces of 16 rows; each case reads that piece at row `j - 16·c`
  obtain h | h | h | h | h | h | h | h : j.val < 16 ∨ (16 ≤ j.val ∧ j.val < 32) ∨ (32 ≤ j.val ∧ j.val < 48) ∨ (48 ≤ j.val ∧ j.val < 64) ∨ (64 ≤ j.val ∧ j.val < 80) ∨ (80 ≤ j.val ∧ j.val < 96) ∨ (96 ≤ j.val ∧ j.val < 112) ∨ 112 ≤ j.val := by omega
  · refine (concatenate_apply_piece (0 : Fin 2) _ _ (ix2 j n) 0 (by show (0 : Nat) < 8; omega) S16x1792 _ rfl rfl 0 (by simp)
      (ix2 (⟨j.val - 0, by omega⟩ : Fin 16) n) (fun b hb => ?_) ?_).trans ?_
    · match b with
      | ⟨0, _⟩ => exact absurd rfl hb
      | ⟨1, _⟩ => rfl
    · show 0 + (j.val - 0) = j.val; omega
    · rw [planeRow2_apply sh v 0 (by omega)]
      have e1 : (⟨0, by omega⟩ : Fin 8) = ⟨j.val / 16, by omega⟩ := Fin.ext (by show 0 = j.val / 16; omega)
      have e2 : (⟨j.val - 0, by omega⟩ : Fin 16) = ⟨j.val % 16, by omega⟩ := Fin.ext (by show j.val - 0 = j.val % 16; omega)
      rw [e1, e2]
  · refine (concatenate_apply_piece (0 : Fin 2) _ _ (ix2 j n) 1 (by show (1 : Nat) < 8; omega) S16x1792 _ rfl rfl 16 (by simp)
      (ix2 (⟨j.val - 16, by omega⟩ : Fin 16) n) (fun b hb => ?_) ?_).trans ?_
    · match b with
      | ⟨0, _⟩ => exact absurd rfl hb
      | ⟨1, _⟩ => rfl
    · show 16 + (j.val - 16) = j.val; omega
    · rw [planeRow2_apply sh v 1 (by omega)]
      have e1 : (⟨1, by omega⟩ : Fin 8) = ⟨j.val / 16, by omega⟩ := Fin.ext (by show 1 = j.val / 16; omega)
      have e2 : (⟨j.val - 16, by omega⟩ : Fin 16) = ⟨j.val % 16, by omega⟩ := Fin.ext (by show j.val - 16 = j.val % 16; omega)
      rw [e1, e2]
  · refine (concatenate_apply_piece (0 : Fin 2) _ _ (ix2 j n) 2 (by show (2 : Nat) < 8; omega) S16x1792 _ rfl rfl 32 (by simp)
      (ix2 (⟨j.val - 32, by omega⟩ : Fin 16) n) (fun b hb => ?_) ?_).trans ?_
    · match b with
      | ⟨0, _⟩ => exact absurd rfl hb
      | ⟨1, _⟩ => rfl
    · show 32 + (j.val - 32) = j.val; omega
    · rw [planeRow2_apply sh v 2 (by omega)]
      have e1 : (⟨2, by omega⟩ : Fin 8) = ⟨j.val / 16, by omega⟩ := Fin.ext (by show 2 = j.val / 16; omega)
      have e2 : (⟨j.val - 32, by omega⟩ : Fin 16) = ⟨j.val % 16, by omega⟩ := Fin.ext (by show j.val - 32 = j.val % 16; omega)
      rw [e1, e2]
  · refine (concatenate_apply_piece (0 : Fin 2) _ _ (ix2 j n) 3 (by show (3 : Nat) < 8; omega) S16x1792 _ rfl rfl 48 (by simp)
      (ix2 (⟨j.val - 48, by omega⟩ : Fin 16) n) (fun b hb => ?_) ?_).trans ?_
    · match b with
      | ⟨0, _⟩ => exact absurd rfl hb
      | ⟨1, _⟩ => rfl
    · show 48 + (j.val - 48) = j.val; omega
    · rw [planeRow2_apply sh v 3 (by omega)]
      have e1 : (⟨3, by omega⟩ : Fin 8) = ⟨j.val / 16, by omega⟩ := Fin.ext (by show 3 = j.val / 16; omega)
      have e2 : (⟨j.val - 48, by omega⟩ : Fin 16) = ⟨j.val % 16, by omega⟩ := Fin.ext (by show j.val - 48 = j.val % 16; omega)
      rw [e1, e2]
  · refine (concatenate_apply_piece (0 : Fin 2) _ _ (ix2 j n) 4 (by show (4 : Nat) < 8; omega) S16x1792 _ rfl rfl 64 (by simp)
      (ix2 (⟨j.val - 64, by omega⟩ : Fin 16) n) (fun b hb => ?_) ?_).trans ?_
    · match b with
      | ⟨0, _⟩ => exact absurd rfl hb
      | ⟨1, _⟩ => rfl
    · show 64 + (j.val - 64) = j.val; omega
    · rw [planeRow2_apply sh v 4 (by omega)]
      have e1 : (⟨4, by omega⟩ : Fin 8) = ⟨j.val / 16, by omega⟩ := Fin.ext (by show 4 = j.val / 16; omega)
      have e2 : (⟨j.val - 64, by omega⟩ : Fin 16) = ⟨j.val % 16, by omega⟩ := Fin.ext (by show j.val - 64 = j.val % 16; omega)
      rw [e1, e2]
  · refine (concatenate_apply_piece (0 : Fin 2) _ _ (ix2 j n) 5 (by show (5 : Nat) < 8; omega) S16x1792 _ rfl rfl 80 (by simp)
      (ix2 (⟨j.val - 80, by omega⟩ : Fin 16) n) (fun b hb => ?_) ?_).trans ?_
    · match b with
      | ⟨0, _⟩ => exact absurd rfl hb
      | ⟨1, _⟩ => rfl
    · show 80 + (j.val - 80) = j.val; omega
    · rw [planeRow2_apply sh v 5 (by omega)]
      have e1 : (⟨5, by omega⟩ : Fin 8) = ⟨j.val / 16, by omega⟩ := Fin.ext (by show 5 = j.val / 16; omega)
      have e2 : (⟨j.val - 80, by omega⟩ : Fin 16) = ⟨j.val % 16, by omega⟩ := Fin.ext (by show j.val - 80 = j.val % 16; omega)
      rw [e1, e2]
  · refine (concatenate_apply_piece (0 : Fin 2) _ _ (ix2 j n) 6 (by show (6 : Nat) < 8; omega) S16x1792 _ rfl rfl 96 (by simp)
      (ix2 (⟨j.val - 96, by omega⟩ : Fin 16) n) (fun b hb => ?_) ?_).trans ?_
    · match b with
      | ⟨0, _⟩ => exact absurd rfl hb
      | ⟨1, _⟩ => rfl
    · show 96 + (j.val - 96) = j.val; omega
    · rw [planeRow2_apply sh v 6 (by omega)]
      have e1 : (⟨6, by omega⟩ : Fin 8) = ⟨j.val / 16, by omega⟩ := Fin.ext (by show 6 = j.val / 16; omega)
      have e2 : (⟨j.val - 96, by omega⟩ : Fin 16) = ⟨j.val % 16, by omega⟩ := Fin.ext (by show j.val - 96 = j.val % 16; omega)
      rw [e1, e2]
  · refine (concatenate_apply_piece (0 : Fin 2) _ _ (ix2 j n) 7 (by show (7 : Nat) < 8; omega) S16x1792 _ rfl rfl 112 (by simp)
      (ix2 (⟨j.val - 112, by omega⟩ : Fin 16) n) (fun b hb => ?_) ?_).trans ?_
    · match b with
      | ⟨0, _⟩ => exact absurd rfl hb
      | ⟨1, _⟩ => rfl
    · show 112 + (j.val - 112) = j.val; omega
    · rw [planeRow2_apply sh v 7 (by omega)]
      have e1 : (⟨7, by omega⟩ : Fin 8) = ⟨j.val / 16, by omega⟩ := Fin.ext (by show 7 = j.val / 16; omega)
      have e2 : (⟨j.val - 112, by omega⟩ : Fin 16) = ⟨j.val % 16, by omega⟩ := Fin.ext (by show j.val - 112 = j.val % 16; omega)
      rw [e1, e2]

/-! ## The product's operand indices

At result entry `i` and contraction position `q` the left operand is read at row `i 0`, column `q`; the right one at
row `q`, column `i 1`. -/

theorem lhs_dot_0 (i : S16x1792.Idx) (q : dot_S16x128_S128x1792_S16x1792_1_0_0_1_n_n.contr.Idx) :
    (dot_S16x128_S128x1792_S16x1792_1_0_0_1_n_n.lhsIdx i q 0).val = (i 0).val := by
  unfold DotDims.lhsIdx
  rw [dif_neg (show ¬(0 : Fin S16x128.rank) ∈ dot_S16x128_S128x1792_S16x1792_1_0_0_1_n_n.lhsBatch by decide), dif_pos (show (0 : Fin S16x128.rank) ∈ dot_S16x128_S128x1792_S16x1792_1_0_0_1_n_n.lhsNonContracting by decide)]
  rfl
theorem lhs_dot_1 (i : S16x1792.Idx) (q : dot_S16x128_S128x1792_S16x1792_1_0_0_1_n_n.contr.Idx) :
    (dot_S16x128_S128x1792_S16x1792_1_0_0_1_n_n.lhsIdx i q 1).val = (q ⟨0, by decide⟩).val :=
  dot_S16x128_S128x1792_S16x1792_1_0_0_1_n_n.lhsIdx_val_of_single rfl i q
theorem rhs_dot_0 (i : S16x1792.Idx) (q : dot_S16x128_S128x1792_S16x1792_1_0_0_1_n_n.contr.Idx) :
    (dot_S16x128_S128x1792_S16x1792_1_0_0_1_n_n.rhsIdx i q 0).val = (q ⟨0, by decide⟩).val :=
  dot_S16x128_S128x1792_S16x1792_1_0_0_1_n_n.rhsIdx_val_of_single rfl i q
theorem rhs_dot_1 (i : S16x1792.Idx) (q : dot_S16x128_S128x1792_S16x1792_1_0_0_1_n_n.contr.Idx) :
    (dot_S16x128_S128x1792_S16x1792_1_0_0_1_n_n.rhsIdx i q 1).val = (i 1).val := by
  unfold DotDims.rhsIdx
  rw [dif_neg (show ¬(1 : Fin S128x1792.rank) ∈ dot_S16x128_S128x1792_S16x1792_1_0_0_1_n_n.rhsBatch by decide), dif_pos (show (1 : Fin S128x1792.rank) ∈ dot_S16x128_S128x1792_S16x1792_1_0_0_1_n_n.rhsNonContracting by decide)]
  rfl

/-- The matrix product into a zero accumulator, at an entry: the dot product of a row of the left operand with a column
    of the right one. -/
theorem matmul_entry (A : FVec Ideal S16x128 .bf16) (B : FVec Ideal S128x1792 .bf16) (r : Fin 16) (n : Fin 1792) :
    matmul dot_S16x128_S128x1792_S16x1792_1_0_0_1_n_n none A B (constant S16x1792 .f32 0x00000000#32) (ix2 r n)
      = ∑ j : Fin 128, A (ix2 r j) * B (ix2 j n) := by
  show FloatOps.matmul dot_S16x128_S128x1792_S16x1792_1_0_0_1_n_n none A B (constant S16x1792 .f32 0x00000000#32) (ix2 r n) = _
  rw [Ideal.matmul_constant_zero_apply, ← Equiv.sum_comp (contrEquiv1 dot_S16x128_S128x1792_S16x1792_1_0_0_1_n_n 128 rfl rfl).symm]
  refine Finset.sum_congr rfl fun k _ => ?_
  have hk := contrEquiv1_symm_val dot_S16x128_S128x1792_S16x1792_1_0_0_1_n_n 128 rfl rfl k
  have el : dot_S16x128_S128x1792_S16x1792_1_0_0_1_n_n.lhsIdx (ix2 r n) ((contrEquiv1 dot_S16x128_S128x1792_S16x1792_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S16x128_S128x1792_S16x1792_1_0_0_1_n_n.rhsIdx (ix2 r n) ((contrEquiv1 dot_S16x128_S128x1792_S16x1792_1_0_0_1_n_n 128 rfl rfl).symm k) = ix2 k n := funext fun a => Fin.ext (by
    match a with
    | ⟨0, _⟩ => exact (rhs_dot_0 _ _).trans hk
    | ⟨1, _⟩ => exact rhs_dot_1 _ _)
  rw [el, er]

/-- The slice of `X` under the group's columns, at an entry. -/
theorem slice_entry (o : Nat) (ho : o + 128 ≤ 1024) (hs : S16x1024.Slices ![0, o] S16x128) (X : FVec Ideal S16x1024 .f32)
    (r : Fin 16) (j : Fin 128) :
    extractStridedSlice S16x128 ![0, o] X hs (ix2 r j) = X (ix2 r (⟨o + j.val, by omega⟩ : Fin 1024)) := by
  refine extractStridedSlice_apply _ X hs (ix2 r j) (ix2 r (⟨o + j.val, by omega⟩ : Fin 1024)) (fun a => ?_)
  match a with
  | ⟨0, _⟩ => show r.val = 0 + r.val; omega
  | ⟨1, _⟩ => rfl

/-- A one-row vector laid down 16 rows reads its row 0 in every row. -/
theorem rowBroadcast_entry (x : FVec Ideal S1x1792 .f32) (r : Fin 16) (n : Fin 1792) :
    broadcastTo S16x1792 x broadcasts_S1x1792_S16x1792 (ix2 r n) = x (ix2 (0 : Fin 1) n) := by
  refine broadcastTo_apply _ _ (ix2 r n) (ix2 (0 : Fin 1) n) (fun a => ?_)
  match a with
  | ⟨0, _⟩ => rfl
  | ⟨1, _⟩ => rfl

/-- The row sums of the slice, laid as a column and then across the lanes, at an entry: the sum of row `r`. -/
theorem rowSum_entry (o : Nat) (ho : o + 128 ≤ 1024) (hs : S16x1024.Slices ![0, o] S16x128) (X : FVec Ideal S16x1024 .f32)
    (r : Fin 16) (n : Fin 1792) :
    broadcastTo S16x1792
        (shapeCast S16x1
          (shapeCast S16x1 (multiReduction .add [1] S16 (extractStridedSlice S16x128 ![0, o] X hs) 0x00000000#32 reduces_S16x128_S16 (.inl rfl) rfl) shapeCasts_S16_S16x1)
          shapeCasts_S16x1_S16x1)
        broadcasts_S16x1_S16x1792 (ix2 r n)
      = ∑ j : Fin 128, X (ix2 r (⟨o + j.val, by omega⟩ : Fin 1024)) := by
  refine (broadcastTo_apply _ _ (ix2 r n) (ix2 r (0 : Fin 1)) (fun a => ?_)).trans ?_
  · match a with
    | ⟨0, _⟩ => rfl
    | ⟨1, _⟩ => rfl
  rw [shapeCast_self]
  refine (shapeCast_apply _ shapeCasts_S16_S16x1 (ix2 r (0 : Fin 1)) (ix1 r) ?_).trans ?_
  · rw [Shape.rowMajor_val_one, Shape.rowMajor_val_two]
    show r.val = r.val * 1 + 0; omega
  refine (Ideal.multiReduction_add_single _ _ reduces_S16x128_S16 (.inl rfl) rfl (ix1 r)).trans ?_
  refine Finset.sum_congr rfl fun (k : Fin 128) _ => ?_
  refine (extractStridedSlice_apply _ X hs _ (ix2 r (⟨o + k.val, by omega⟩ : Fin 1024)) (fun a => ?_))
  match a with
  | ⟨0, _⟩ => show r.val = 0 + r.val; omega
  | ⟨1, _⟩ => rfl

theorem update_apply (off : Fin 2 → Nat) (hs : S16x1024.Slices off S16x128) (o : Nat) (ho : o + 128 ≤ 1024) (hoff : off = ![0, o])
    (X : FVec Ideal S16x1024 .f32) (b1 b2 : IVec S128x1792 32) (sc zr : FVec Ideal S1x1792 .f32) (acc : FVec Ideal S16x1792 .f32)
    (r : Fin 16) (n : Fin 1792) :
    update (F := Ideal) off hs X b1 b2 sc zr acc (ix2 r n)
      = acc (ix2 r n)
        + ((∑ j : Fin 128, X (ix2 r (⟨o + j.val, by omega⟩ : Fin 1024))
              * (((IntOp.ori (IntOp.shli .vector (b2 (ix2 j n)) 1#32) (b1 (ix2 j n))).toInt : ℝ) : EReal))
            * sc (ix2 (0 : Fin 1) n)
          - (∑ j : Fin 128, X (ix2 r (⟨o + j.val, by omega⟩ : Fin 1024))) * (zr (ix2 (0 : Fin 1) n) * sc (ix2 (0 : Fin 1) n))) := by
  subst hoff
  unfold update
  rw [shapeCast_self]
  -- the elementwise operations read entry by entry
  simp only [addf_apply, subf_apply, mulf_apply]
  rw [matmul_entry, rowBroadcast_entry, rowSum_entry o ho hs X r n, rowBroadcast_entry, shapeCast_self]
  have eM : ∀ j : Fin 128,
      extractStridedSlice S16x128 ![0, o] (truncf .bf16 X bitsLt_bf16_f32) hs (ix2 r j)
          * (sitofp .bf16 (ori (shli b2 (broadcast S128x1792 1#32)) b1) : FVec Ideal S128x1792 .bf16) (ix2 j n)
        = X (ix2 r (⟨o + j.val, by omega⟩ : Fin 1024))
          * (((IntOp.ori (IntOp.shli .vector (b2 (ix2 j n)) 1#32) (b1 (ix2 j n))).toInt : ℝ) : EReal) := fun j => by
    rw [slice_entry o ho hs (truncf .bf16 X bitsLt_bf16_f32) r j]
    rfl
  rw [Finset.sum_congr rfl fun j _ => eM j]
  rfl

end Cert.KernelIdeal.Grp

end
-- ==== Proof.Spec.lean ====
/-
  A 3-bit quantised matrix product, as one function of the arguments.

  The weight matrix has 4096 rows and 14336 columns. Row `k`, column `n` holds a code of three bits: bit `k % 32` of
  word `(k / 32, n)` of the one-bit plane below the two bits at position `2 · (k % 16)` of word `(k / 16, n)` of the
  two-bit plane (`code`, `qAt`). Rows come in 32 groups of 128; group `k / 128` has, per column, a scale and a zero point,
  and the weight is `(code − zero) · scale` (`wAt`). The product of `x` (16 × 4096) with the weights is `refForm`.

  The same number can be accumulated group by group without ever forming a weight: for a group, the dot product of
  the row of `x` with the codes, times the scale, minus the row's sum over the group times `zero · scale`
  (`groupTerm`); the 32 groups are visited as 4 tiles of 8 (`tiledForm`). On finite entries the two agree, by
  distributivity: `Σ_k x_k (q_k − z) s = s Σ_k x_k q_k − (Σ_k x_k) (z s)` within a group.
-/
import Idealize.ShloMosaic.PureOps.Ideal
import Idealize.ShloMosaic.Lib.ValueIdx

noncomputable section

open scoped BigOperators

namespace Cert.QuantSpec

open Idealize.ShloMosaic Idealize.ShloMosaic.ValueIdx

abbrev SX : Shape := ⟨2, ![16, 4096]⟩
abbrev SW1 : Shape := ⟨2, ![128, 14336]⟩
abbrev SW2 : Shape := ⟨2, ![256, 14336]⟩
abbrev SG : Shape := ⟨2, ![32, 14336]⟩
abbrev SO : Shape := ⟨2, ![16, 14336]⟩

/-- One 3-bit code: bit `p1` of the one-bit plane's word `a`, under the two bits of the two-bit plane's word `b`
    that start at bit `2 · p2`. The shift amounts are written as the programs compute them, a position times the
    width of a field. -/
def code (a b : BitVec 32) (p1 p2 : Nat) : BitVec 32 :=
  IntOp.ori
    (IntOp.shli .vector (IntOp.andi (IntOp.shrsi .vector b (IntOp.muli (BitVec.ofNat 32 p2) 2#32)) 3#32) 1#32)
    (IntOp.andi (IntOp.shrsi .vector a (IntOp.muli (BitVec.ofNat 32 p1) 1#32)) 1#32)

/-- The code of weight row `k`, column `n`. -/
def qAt (w1 : IVec SW1 32) (w2 : IVec SW2 32) (k : Fin 4096) (n : Fin 14336) : BitVec 32 :=
  code (w1 (ix2 (⟨k.val / 32, by omega⟩ : Fin 128) n)) (w2 (ix2 (⟨k.val / 16, by omega⟩ : Fin 256) n))
    (k.val % 32) (k.val % 16)

/-- The code read as a number. -/
def qVal (w1 : IVec SW1 32) (w2 : IVec SW2 32) (k : Fin 4096) (n : Fin 14336) : EReal :=
  (((qAt w1 w2 k n).toInt : ℝ) : EReal)

/-- The dequantised weight at row `k`, column `n`: `(code − zero) · scale`, zero point and scale those of the
    row's group `k / 128`. -/
def wAt (w1 : IVec SW1 32) (w2 : IVec SW2 32) (s z : SG.Idx → EReal) (k : Fin 4096) (n : Fin 14336) : EReal :=
  (qVal w1 w2 k n - z (ix2 (⟨k.val / 128, by omega⟩ : Fin 32) n)) * s (ix2 (⟨k.val / 128, by omega⟩ : Fin 32) n)

/-- Entry `(r, n)` of `x` times the dequantised weights. -/
def refForm (x : SX.Idx → EReal) (w1 : IVec SW1 32) (w2 : IVec SW2 32) (s z : SG.Idx → EReal)
    (r : Fin 16) (n : Fin 14336) : EReal :=
  ∑ k : Fin 4096, x (ix2 r k) * wAt w1 w2 s z k n

/-- Weight row `j` of group `g` of tile `kt`. -/
def rowOf (kt : Fin 4) (g : Fin 8) (j : Fin 128) : Fin 4096 := ⟨kt.val * 1024 + g.val * 128 + j.val, by omega⟩

/-- The group `g` of tile `kt` among the 32. -/
def groupOf (kt : Fin 4) (g : Fin 8) : Fin 32 := ⟨kt.val * 8 + g.val, by omega⟩

/-- What group `g` of tile `kt` adds to entry `(r, n)`: the row of `x` against the codes, scaled, minus the row's
    sum over the group times `zero · scale`. -/
def groupTerm (x : SX.Idx → EReal) (w1 : IVec SW1 32) (w2 : IVec SW2 32) (s z : SG.Idx → EReal)
    (r : Fin 16) (n : Fin 14336) (kt : Fin 4) (g : Fin 8) : EReal :=
  (∑ j : Fin 128, x (ix2 r (rowOf kt g j)) * qVal w1 w2 (rowOf kt g j) n) * s (ix2 (groupOf kt g) n)
    - (∑ j : Fin 128, x (ix2 r (rowOf kt g j))) * (z (ix2 (groupOf kt g) n) * s (ix2 (groupOf kt g) n))

/-- Entry `(r, n)` accumulated tile by tile, group by group. -/
def tiledForm (x : SX.Idx → EReal) (w1 : IVec SW1 32) (w2 : IVec SW2 32) (s z : SG.Idx → EReal)
    (r : Fin 16) (n : Fin 14336) : EReal :=
  ∑ kt : Fin 4, ∑ g : Fin 8, groupTerm x w1 w2 s z r n kt g

/-- The whole result array. -/
def G (x : SX.Idx → EReal) (w1 : IVec SW1 32) (w2 : IVec SW2 32) (s z : SG.Idx → EReal) : SO.Idx → EReal :=
  fun i => refForm x w1 w2 s z (i 0) (i 1)

end Cert.QuantSpec

end
-- ==== Proof.StepAt.lean ====
/-
  One grid point read at one entry.

  Entry `(r, n)` of a point's result is the accumulator's entry plus, for each of the tile's eight groups `g`, the
  group's term (`groupTermBlk`): the dot product of row `r` of the group's 128 columns of the tile of `x` with
  column `n` of the group's codes, times the group's scale in column `n`, minus the row's sum over those columns
  times `zero · scale`. The codes are assembled from the staged blocks' words as the specification's `code` does.
-/
import proofs.«411462_j90409061580808_2_alg».proof.Proof.Step
import proofs.«411462_j90409061580808_2_alg».proof.Proof.GroupAt
import proofs.«411462_j90409061580808_2_alg».proof.Proof.Spec

noncomputable section

open scoped BigOperators

namespace Cert.KernelIdeal.Grp

open Cert.KernelIdeal Cert.KernelIdeal.Gen Idealize.ShloMosaic Idealize.ShloMosaic.ValueIdx

/-- Rows `a …` of a staged block, read at `(p, q)`: the block at `(a + p, q)`. -/
theorem ld_rows_apply {Val : EltTy → Type} {e : EltTy} {M N m n : Nat} (x : (⟨2, ![M, N]⟩ : Shape).Idx → Val e) (a : Nat)
    (inb : ∀ d, (![a, 0] : Fin 2 → Nat) d + (⟨2, ![m, n]⟩ : Shape).size d ≤ (⟨2, ![M, N]⟩ : Shape).size d)
    (p : Fin m) (q : Fin n) (hp : a + p.val < M) (hq : q.val < N) :
    View.ld x (Rect.unit ![a, 0] (⟨2, ![m, n]⟩ : Shape).size inb) (ix2 p q) = x (ix2 (⟨a + p.val, hp⟩ : Fin M) (⟨q.val, hq⟩ : Fin N)) := by
  show x _ = x _
  congr 1
  funext d
  apply Fin.ext
  match d with
  | ⟨0, _⟩ => show a + 1 * p.val = a + p.val; omega
  | ⟨1, _⟩ => show 0 + 1 * q.val = q.val; omega

/-- What group `g` of a tile adds to entry `(r, n)`, from the staged blocks. -/
def groupTermBlk (x0 : FVec Ideal S16x1024 .f32) (x1 : IVec S32x1792 32) (x2 : IVec S64x1792 32) (x3 x4 : FVec Ideal S8x1792 .f32)
    (r : Fin 16) (n : Fin 1792) (g : Fin 8) : EReal :=
  (∑ j : Fin 128, x0 (ix2 r (⟨128 * g.val + j.val, by omega⟩ : Fin 1024))
      * (((Cert.QuantSpec.code (x1 (ix2 (⟨4 * g.val + j.val / 32, by omega⟩ : Fin 32) n))
            (x2 (ix2 (⟨8 * g.val + j.val / 16, by omega⟩ : Fin 64) n)) (j.val % 32) (j.val % 16)).toInt : ℝ) : EReal))
      * x3 (ix2 g n)
    - (∑ j : Fin 128, x0 (ix2 r (⟨128 * g.val + j.val, by omega⟩ : Fin 1024))) * (x4 (ix2 g n) * x3 (ix2 g n))

theorem groupStep_apply (g : Fin 8) (o : Fin 2 → Nat) (hs : S16x1024.Slices o S16x128)
    (o1 : Fin 2 → Nat) (inb1 : ∀ a, o1 a + S4x1792.size a ≤ S32x1792.size a)
    (o2 : Fin 2 → Nat) (inb2 : ∀ a, o2 a + S8x1792.size a ≤ S64x1792.size a)
    (o3 : Fin 2 → Nat) (inb3 : ∀ a, o3 a + S1x1792.size a ≤ S8x1792.size a)
    (ho : o = ![0, 128 * g.val]) (ho1 : o1 = ![4 * g.val, 0]) (ho2 : o2 = ![8 * g.val, 0]) (ho3 : o3 = ![g.val, 0])
    (x0 : FVec Ideal S16x1024 .f32) (x1 : IVec S32x1792 32) (x2 : IVec S64x1792 32) (x3 x4 : FVec Ideal S8x1792 .f32)
    (acc : FVec Ideal S16x1792 .f32) (r : Fin 16) (n : Fin 1792) :
    groupStep (F := Ideal) o hs o1 inb1 o2 inb2 o3 inb3 x0 x1 x2 x3 x4 acc (ix2 r n)
      = acc (ix2 r n) + groupTermBlk x0 x1 x2 x3 x4 r n g := by
  subst ho ho1 ho2 ho3
  have hg := g.isLt
  unfold groupStep groupTermBlk
  rw [update_apply _ hs (128 * g.val) (by omega) rfl]
  have e3 : View.ld (Val := Elt Ideal) (e' := .f32) x3 (Rect.unit ![g.val, 0] S1x1792.size inb3) (ix2 (0 : Fin 1) n) = x3 (ix2 g n) :=
    (ld_rows_apply (Val := Elt Ideal) (e := .f32) (M := 8) (N := 1792) (m := 1) (n := 1792) x3 g.val inb3 (0 : Fin 1) n (by show g.val + 0 < 8; omega) n.isLt).trans
      (congrArg x3 (by funext d; apply Fin.ext; match d with | ⟨0, _⟩ => show g.val + 0 = g.val; omega | ⟨1, _⟩ => rfl))
  have e4 : View.ld (Val := Elt Ideal) (e' := .f32) x4 (Rect.unit ![g.val, 0] S1x1792.size inb3) (ix2 (0 : Fin 1) n) = x4 (ix2 g n) :=
    (ld_rows_apply (Val := Elt Ideal) (e := .f32) (M := 8) (N := 1792) (m := 1) (n := 1792) x4 g.val inb3 (0 : Fin 1) n (by show g.val + 0 < 8; omega) n.isLt).trans
      (congrArg x4 (by funext d; apply Fin.ext; match d with | ⟨0, _⟩ => show g.val + 0 = g.val; omega | ⟨1, _⟩ => rfl))
  rw [e3, e4]
  congr 3
  refine Finset.sum_congr rfl fun j _ => ?_
  have hj := j.isLt
  congr 4
  rw [plane1_apply, plane2_apply, shifts1_apply, shifts2_apply]
  rw [ld_rows_apply (Val := Elt Ideal) (e := .i32) (M := 32) (N := 1792) (m := 4) (n := 1792) x1 (4 * g.val) inb1 (⟨j.val / 32, by omega⟩ : Fin 4) n (by show 4 * g.val + j.val / 32 < 32; omega) n.isLt,
    ld_rows_apply (Val := Elt Ideal) (e := .i32) (M := 64) (N := 1792) (m := 8) (n := 1792) x2 (8 * g.val) inb2 (⟨j.val / 16, by omega⟩ : Fin 8) n (by show 8 * g.val + j.val / 16 < 64; omega) n.isLt]
  rfl

/-- A point's result at an entry: the accumulator's entry plus the eight groups' terms. -/
theorem step_apply (x0 : FVec Ideal S16x1024 .f32) (x1 : IVec S32x1792 32) (x2 : IVec S64x1792 32) (x3 x4 : FVec Ideal S8x1792 .f32)
    (acc : FVec Ideal S16x1792 .f32) (r : Fin 16) (n : Fin 1792) :
    step (F := Ideal) x0 x1 x2 x3 x4 acc (ix2 r n) = acc (ix2 r n) + ∑ g : Fin 8, groupTermBlk x0 x1 x2 x3 x4 r n g := by
  unfold step
  rw [groupStep_apply 7 ![0, 896] slices_S16x1024_o0_896_S16x128 ![28, 0] inb_S32x1792_S4x1792_28_0 ![56, 0] inb_S64x1792_S8x1792_56_0 ![7, 0] inb_S8x1792_S1x1792_7_0 rfl rfl rfl rfl,
    groupStep_apply 6 ![0, 768] slices_S16x1024_o0_768_S16x128 ![24, 0] inb_S32x1792_S4x1792_24_0 ![48, 0] inb_S64x1792_S8x1792_48_0 ![6, 0] inb_S8x1792_S1x1792_6_0 rfl rfl rfl rfl,
    groupStep_apply 5 ![0, 640] slices_S16x1024_o0_640_S16x128 ![20, 0] inb_S32x1792_S4x1792_20_0 ![40, 0] inb_S64x1792_S8x1792_40_0 ![5, 0] inb_S8x1792_S1x1792_5_0 rfl rfl rfl rfl,
    groupStep_apply 4 ![0, 512] slices_S16x1024_o0_512_S16x128 ![16, 0] inb_S32x1792_S4x1792_16_0 ![32, 0] inb_S64x1792_S8x1792_32_0 ![4, 0] inb_S8x1792_S1x1792_4_0 rfl rfl rfl rfl,
    groupStep_apply 3 ![0, 384] slices_S16x1024_o0_384_S16x128 ![12, 0] inb_S32x1792_S4x1792_12_0 ![24, 0] inb_S64x1792_S8x1792_24_0 ![3, 0] inb_S8x1792_S1x1792_3_0 rfl rfl rfl rfl,
    groupStep_apply 2 ![0, 256] slices_S16x1024_o0_256_S16x128 ![8, 0] inb_S32x1792_S4x1792_8_0 ![16, 0] inb_S64x1792_S8x1792_16_0 ![2, 0] inb_S8x1792_S1x1792_2_0 rfl rfl rfl rfl,
    groupStep_apply 1 ![0, 128] slices_S16x1024_o0_128_S16x128 ![4, 0] inb_S32x1792_S4x1792_4_0 ![8, 0] inb_S64x1792_S8x1792_8_0 ![1, 0] inb_S8x1792_S1x1792_1_0 rfl rfl rfl rfl,
    groupStep_apply 0 ![0, 0] slices_S16x1024_o0_0_S16x128 ![0, 0] inb_S32x1792_S4x1792_0_0 ![0, 0] inb_S64x1792_S8x1792_0_0 ![0, 0] inb_S8x1792_S1x1792_0_0 rfl rfl rfl rfl]
  rw [Fin.sum_univ_eight]
  simp only [add_assoc]

/-- The zero accumulator's entries are zero. -/
theorem zeroAcc_apply (i : S16x1792.Idx) : zeroAcc (F := Ideal) i = 0 := by
  unfold zeroAcc
  rw [shapeCast_self]
  show Ideal.ofBits .f32 0x00000000#32 = 0
  exact Ideal.ofBits_zero_f32

end Cert.KernelIdeal.Grp

end
-- ==== Proof.Fold.lean ====
/-
  From the grid to the result array.

  The 32 grid points are the 8 column blocks of 1792 columns times the 4 tiles of 1024 weight rows, a block's tiles
  consecutive. Point `t` stages tile `t % 4` of `x` and, of the two planes, the scales and the zero points, the
  rows of tile `t % 4` in the columns of block `t / 4`; so what a group of point `t` adds to entry `(r, n)` of the
  block is the specification's `groupTerm` at column `(t / 4) · 1792 + n` for tile `t % 4` (`blockTerm_eq`). The
  scratch starts a block's run at zero and every point adds its eight terms, so after the run's last point it holds
  the block's entries of `tiledForm`; that point copies it to the output block, and the eight blocks tile the array.
-/
import proofs.«411462_j90409061580808_2_alg».proof.Proof.Gen.KernelIdeal.Value
import proofs.«411462_j90409061580808_2_alg».proof.Proof.StepAt
import proofs.«411462_j90409061580808_2_alg».proof.Proof.Spec

set_option maxRecDepth 16384

noncomputable section

open scoped BigOperators

namespace Cert.KernelIdeal.Fold

open Cert.KernelIdeal Cert.KernelIdeal.Gen Cert.KernelIdeal.Grp Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arrays and the staged blocks, at their literal types -/

abbrev xarr (c : Dev nD) : FVec Ideal S16x4096 .f32 := V m c main_arg0
abbrev w1arr (c : Dev nD) : IVec S128x14336 32 := V m c main_arg1
abbrev w2arr (c : Dev nD) : IVec S256x14336 32 := V m c main_arg2
abbrev sarr (c : Dev nD) : FVec Ideal S32x14336 .f32 := V m c main_arg3
abbrev zarr (c : Dev nD) : FVec Ideal S32x14336 .f32 := V m c main_arg4

abbrev blk0 (c : Dev nD) (t : Fin cfg0.N) : FVec Ideal S16x1024 .f32 := iblk m c 0 t
abbrev blk1 (c : Dev nD) (t : Fin cfg0.N) : IVec S32x1792 32 := iblk m c 1 t
abbrev blk2 (c : Dev nD) (t : Fin cfg0.N) : IVec S64x1792 32 := iblk m c 2 t
abbrev blk3 (c : Dev nD) (t : Fin cfg0.N) : FVec Ideal S8x1792 .f32 := iblk m c 3 t
abbrev blk4 (c : Dev nD) (t : Fin cfg0.N) : FVec Ideal S8x1792 .f32 := iblk m c 4 t

/-- Where each window's block sits at point `t`: tile `t % 4` along the weight rows, block `t / 4` along the columns. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = t.val % 4 ∧ win0_4.index t (1 : Fin 2) = t.val / 4
    ∧ win0_5.index t (0 : Fin 2) = 0 ∧ win0_5.index t (1 : Fin 2) = t.val / 4 :=
  (by decide +kernel : ∀ t : Fin grid0.N, _)

theorem N_eq : cfg0.N = 32 := N_0

theorem blk0_apply (c : Dev nD) (t : Fin cfg0.N) (r : Fin 16) (j : Fin 1024) :
    blk0 m c t (ix2 r j) = xarr m c (ix2 r (⟨t.val % 4 * 1024 + j.val, by omega⟩ : Fin 4096)) := by
  obtain ⟨e0, e1, -⟩ := idx_facts t
  unfold blk0 iblk
  rw [View.read_apply]
  show V m c main_arg0 _ = V m c main_arg0 _
  congr 1
  funext a
  apply Fin.ext
  match a with
  | ⟨0, _⟩ => show win0_0.index t (0 : Fin 2) * 16 + 1 * r.val = r.val; rw [e0]; omega
  | ⟨1, _⟩ => show win0_0.index t (1 : Fin 2) * 1024 + 1 * j.val = t.val % 4 * 1024 + j.val; rw [e1]; omega

theorem blk1_apply (c : Dev nD) (t : Fin cfg0.N) (p : Fin 32) (n : Fin 1792) :
    blk1 m c t (ix2 p n) = w1arr m c (ix2 (⟨t.val % 4 * 32 + p.val, by omega⟩ : Fin 128)
      (⟨t.val / 4 * 1792 + n.val, by have := t.isLt; have := N_eq; omega⟩ : Fin 14336)) := by
  obtain ⟨-, -, e0, e1, -⟩ := idx_facts t
  unfold blk1 iblk
  rw [View.read_apply]
  show V m c main_arg1 _ = V m c main_arg1 _
  congr 1
  funext a
  apply Fin.ext
  match a with
  | ⟨0, _⟩ => show win0_1.index t (0 : Fin 2) * 32 + 1 * p.val = t.val % 4 * 32 + p.val; rw [e0]; omega
  | ⟨1, _⟩ => show win0_1.index t (1 : Fin 2) * 1792 + 1 * n.val = t.val / 4 * 1792 + n.val; rw [e1]; omega

theorem blk2_apply (c : Dev nD) (t : Fin cfg0.N) (p : Fin 64) (n : Fin 1792) :
    blk2 m c t (ix2 p n) = w2arr m c (ix2 (⟨t.val % 4 * 64 + p.val, by omega⟩ : Fin 256)
      (⟨t.val / 4 * 1792 + n.val, by have := t.isLt; have := N_eq; omega⟩ : Fin 14336)) := by
  obtain ⟨-, -, -, -, e0, e1, -⟩ := idx_facts t
  unfold blk2 iblk
  rw [View.read_apply]
  show V m c main_arg2 _ = V m c main_arg2 _
  congr 1
  funext a
  apply Fin.ext
  match a with
  | ⟨0, _⟩ => show win0_2.index t (0 : Fin 2) * 64 + 1 * p.val = t.val % 4 * 64 + p.val; rw [e0]; omega
  | ⟨1, _⟩ => show win0_2.index t (1 : Fin 2) * 1792 + 1 * n.val = t.val / 4 * 1792 + n.val; rw [e1]; omega

theorem blk3_apply (c : Dev nD) (t : Fin cfg0.N) (p : Fin 8) (n : Fin 1792) :
    blk3 m c t (ix2 p n) = sarr m c (ix2 (⟨t.val % 4 * 8 + p.val, by omega⟩ : Fin 32)
      (⟨t.val / 4 * 1792 + n.val, by have := t.isLt; have := N_eq; omega⟩ : Fin 14336)) := by
  obtain ⟨-, -, -, -, -, -, e0, e1, -⟩ := idx_facts t
  unfold blk3 iblk
  rw [View.read_apply]
  show V m c main_arg3 _ = V m c main_arg3 _
  congr 1
  funext a
  apply Fin.ext
  match a with
  | ⟨0, _⟩ => show win0_3.index t (0 : Fin 2) * 8 + 1 * p.val = t.val % 4 * 8 + p.val; rw [e0]; omega
  | ⟨1, _⟩ => show win0_3.index t (1 : Fin 2) * 1792 + 1 * n.val = t.val / 4 * 1792 + n.val; rw [e1]; omega

theorem blk4_apply (c : Dev nD) (t : Fin cfg0.N) (p : Fin 8) (n : Fin 1792) :
    blk4 m c t (ix2 p n) = zarr m c (ix2 (⟨t.val % 4 * 8 + p.val, by omega⟩ : Fin 32)
      (⟨t.val / 4 * 1792 + n.val, by have := t.isLt; have := N_eq; omega⟩ : Fin 14336)) := by
  obtain ⟨-, -, -, -, -, -, -, -, e0, e1, -⟩ := idx_facts t
  unfold blk4 iblk
  rw [View.read_apply]
  show V m c main_arg4 _ = V m c main_arg4 _
  congr 1
  funext a
  apply Fin.ext
  match a with
  | ⟨0, _⟩ => show win0_4.index t (0 : Fin 2) * 8 + 1 * p.val = t.val % 4 * 8 + p.val; rw [e0]; omega
  | ⟨1, _⟩ => show win0_4.index t (1 : Fin 2) * 1792 + 1 * n.val = t.val / 4 * 1792 + n.val; rw [e1]; omega

/-! ## A point's group terms are the specification's -/

/-- The column of the array under column `n` of point `t`'s block. -/
def colOf (t : Fin cfg0.N) (n : Fin 1792) : Fin 14336 := ⟨t.val / 4 * 1792 + n.val, by have := t.isLt; have := N_eq; omega⟩

/-- The tile point `t` works on. -/
def tileOf (t : Fin cfg0.N) : Fin 4 := ⟨t.val % 4, Nat.mod_lt _ (by decide)⟩

theorem blockTerm_eq (c : Dev nD) (t : Fin cfg0.N) (r : Fin 16) (n : Fin 1792) (g : Fin 8) :
    groupTermBlk (blk0 m c t) (blk1 m c t) (blk2 m c t) (blk3 m c t) (blk4 m c t) r n g
      = Cert.QuantSpec.groupTerm (xarr m c) (w1arr m c) (w2arr m c) (sarr m c) (zarr m c) r (colOf t n) (tileOf t) g := by
  have hg := g.isLt
  unfold groupTermBlk Cert.QuantSpec.groupTerm
  have ex : ∀ j : Fin 128, blk0 m c t (ix2 r (⟨128 * g.val + j.val, by omega⟩ : Fin 1024))
      = xarr m c (ix2 r (Cert.QuantSpec.rowOf (tileOf t) g j)) := fun j => by
    rw [blk0_apply]
    exact congrArg (xarr m c) (congrArg (ix2 r) (Fin.ext (by show t.val % 4 * 1024 + (128 * g.val + j.val) = t.val % 4 * 1024 + g.val * 128 + j.val; omega)))
  have eq : ∀ j : Fin 128, Cert.QuantSpec.code (blk1 m c t (ix2 (⟨4 * g.val + j.val / 32, by omega⟩ : Fin 32) n))
        (blk2 m c t (ix2 (⟨8 * g.val + j.val / 16, by omega⟩ : Fin 64) n)) (j.val % 32) (j.val % 16)
      = Cert.QuantSpec.qAt (w1arr m c) (w2arr m c) (Cert.QuantSpec.rowOf (tileOf t) g j) (colOf t n) := fun j => by
    have hj := j.isLt
    rw [blk1_apply, blk2_apply]
    unfold Cert.QuantSpec.qAt
    have a1 : (⟨t.val % 4 * 32 + (4 * g.val + j.val / 32), by omega⟩ : Fin 128)
        = ⟨(Cert.QuantSpec.rowOf (tileOf t) g j).val / 32, by omega⟩ :=
      Fin.ext (by show t.val % 4 * 32 + (4 * g.val + j.val / 32) = (t.val % 4 * 1024 + g.val * 128 + j.val) / 32; omega)
    have a2 : (⟨t.val % 4 * 64 + (8 * g.val + j.val / 16), by omega⟩ : Fin 256)
        = ⟨(Cert.QuantSpec.rowOf (tileOf t) g j).val / 16, by omega⟩ :=
      Fin.ext (by show t.val % 4 * 64 + (8 * g.val + j.val / 16) = (t.val % 4 * 1024 + g.val * 128 + j.val) / 16; omega)
    have p1 : j.val % 32 = (Cert.QuantSpec.rowOf (tileOf t) g j).val % 32 := by
      show j.val % 32 = (t.val % 4 * 1024 + g.val * 128 + j.val) % 32; omega
    have p2 : j.val % 16 = (Cert.QuantSpec.rowOf (tileOf t) g j).val % 16 := by
      show j.val % 16 = (t.val % 4 * 1024 + g.val * 128 + j.val) % 16; omega
    show Cert.QuantSpec.code (w1arr m c (ix2 _ (colOf t n))) (w2arr m c (ix2 _ (colOf t n))) _ _ = _
    rw [a1, a2, p1, p2]
  have es : blk3 m c t (ix2 g n) = sarr m c (ix2 (Cert.QuantSpec.groupOf (tileOf t) g) (colOf t n)) := by
    rw [blk3_apply]; rfl
  have ez : blk4 m c t (ix2 g n) = zarr m c (ix2 (Cert.QuantSpec.groupOf (tileOf t) g) (colOf t n)) := by
    rw [blk4_apply]; rfl
  rw [es, ez]
  simp only [ex, eq, Cert.QuantSpec.qVal]

/-! ## The scratch over a block's run -/

/-- What point `n` adds to entry `i` of the scratch (zero past the grid, where it is never used). -/
def addend (c : Dev nD) (n : Nat) (i : S16x1792.Idx) : EReal :=
  if h : n < cfg0.N then
    ∑ g : Fin 8, groupTermBlk (blk0 m c ⟨n, h⟩) (blk1 m c ⟨n, h⟩) (blk2 m c ⟨n, h⟩) (blk3 m c ⟨n, h⟩) (blk4 m c ⟨n, h⟩) (i 0) (i 1) g
  else 0

/-- The scratch after point `n` over what it held before: a run's first point starts from zero. -/
theorem scAt_eq (c : Dev nD) (n : Nat) (hb : n < cfg0.N) (acc : Vec Ideal S16x1792 .f32) :
    Cert.KernelIdeal.Value.scAt0_0 m c n hb acc
      = step (blk0 m c ⟨n, hb⟩) (blk1 m c ⟨n, hb⟩) (blk2 m c ⟨n, hb⟩) (blk3 m c ⟨n, hb⟩) (blk4 m c ⟨n, hb⟩)
          (if n % 4 = 0 then zeroAcc else acc) := by
  have hN := N_eq
  unfold Cert.KernelIdeal.Value.scAt0_0
  by_cases h0 : n % 4 = 0
  · have h1 : ¬n % 4 = 3 := by omega
    rw [dif_pos h0, dif_neg h1, if_pos h0]
    exact scratch_first ..
  · by_cases h1 : n % 4 = 3
    · rw [dif_neg h0, dif_pos h1, if_neg h0]
      exact scratch_last ..
    · rw [dif_neg h0, dif_neg h1, if_neg h0]
      exact scratch_mid ..

theorem scAt_apply₂ (c : Dev nD) (n : Nat) (hb : n < cfg0.N) (acc : Vec Ideal S16x1792 .f32) (r : Fin 16) (n' : Fin 1792) :
    Cert.KernelIdeal.Value.scAt0_0 m c n hb acc (ix2 r n')
      = (if n % 4 = 0 then 0 else acc (ix2 r n')) + addend m c n (ix2 r n') := by
  have ea : addend m c n (ix2 r n')
      = ∑ g : Fin 8, groupTermBlk (blk0 m c ⟨n, hb⟩) (blk1 m c ⟨n, hb⟩) (blk2 m c ⟨n, hb⟩) (blk3 m c ⟨n, hb⟩) (blk4 m c ⟨n, hb⟩) r n' g := by
    unfold addend
    rw [dif_pos hb]
  rw [scAt_eq, step_apply, ea]
  by_cases h0 : n % 4 = 0
  · rw [if_pos h0, if_pos h0, zeroAcc_apply]
  · rw [if_neg h0, if_neg h0]

theorem scAt_apply (c : Dev nD) (n : Nat) (hb : n < cfg0.N) (acc : Vec Ideal S16x1792 .f32) (i : S16x1792.Idx) :
    Cert.KernelIdeal.Value.scAt0_0 m c n hb acc i = (if n % 4 = 0 then 0 else acc i) + addend m c n i := by
  obtain ⟨r, n', rfl⟩ : ∃ (r : Fin 16) (n' : Fin 1792), i = ix2 r n' := ⟨i 0, i 1, eq_ix2 i⟩
  exact scAt_apply₂ m c n hb acc r n'

/-- After point `t` the scratch holds the sum of the addends of its run so far. -/
theorem scratch_sum (c : Dev nD) (t : Fin cfg0.N) (i : S16x1792.Idx) :
    (outsAt0 m c t.val t.isLt).2 i = ∑ s ∈ Finset.range (t.val % 4 + 1), addend m c (4 * (t.val / 4) + s) i := by
  have hN := N_eq
  rw [Cert.KernelIdeal.Value.soutsAt0_0_eq m c t]
  have key := Pipeline.accAt_add_apply (N := cfg0.N)
    (fun n h => Cert.KernelIdeal.Value.scAt0_0 m c n h (VS0_0.read (Elt Ideal) VS0_0.junk))
    (Cert.KernelIdeal.Value.scAt0_0 m c) (fun _ => (0 : EReal)) (addend m c) (4 * (t.val / 4)) 3
    (fun h i => by
      show Cert.KernelIdeal.Value.scAt0_0 m c _ h _ i = 0 + _
      rw [scAt_apply, if_pos (by omega)])
    (fun n h acc i hlo hhi => by
      rw [scAt_apply, if_neg (by omega)])
    (t.val % 4) (by omega) (by omega) i
  rw [key, zero_add]

/-! ## The output block and the result array -/

/-- At a run's last point the output block receives what the scratch ends holding. -/
theorem out_eq_scratch (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  rw [out_last, scratch_last]

/-- The result array: entry `(r, n)` accumulated tile by tile, group by group. -/
def result (c : Dev nD) : FVec Ideal S16x14336 .f32 :=
  fun i => Cert.QuantSpec.tiledForm (xarr m c) (w1arr m c) (w2arr m c) (sarr m c) (zarr m c) (i 0) (i 1)

theorem out_apply (c : Dev nD) (t : Fin cfg0.N) (h3 : t.val % 4 = 3) (r : Fin 16) (n : Fin 1792) :
    (outsAt0 m c t.val t.isLt).1 (ix2 r n) = result m c (ix2 r (colOf t n)) := by
  have hN := N_eq
  rw [out_eq_scratch m c t h3, scratch_sum, h3]
  show _ = Cert.QuantSpec.tiledForm _ _ _ _ _ r (colOf t n)
  unfold Cert.QuantSpec.tiledForm
  rw [Finset.sum_range (fun s => addend m c (4 * (t.val / 4) + s) (ix2 r n))]
  refine Finset.sum_congr rfl fun kt _ => ?_
  have hk := kt.isLt
  have hb : 4 * (t.val / 4) + kt.val < cfg0.N := by omega
  unfold addend
  rw [dif_pos hb]
  refine Finset.sum_congr rfl fun g _ => ?_
  rw [blockTerm_eq]
  have e1 : colOf (⟨4 * (t.val / 4) + kt.val, hb⟩ : Fin cfg0.N) n = colOf t n :=
    Fin.ext (by show (4 * (t.val / 4) + kt.val) / 4 * 1792 + n.val = t.val / 4 * 1792 + n.val; omega)
  have e2 : tileOf (⟨4 * (t.val / 4) + kt.val, hb⟩ : Fin cfg0.N) = kt :=
    Fin.ext (by show (4 * (t.val / 4) + kt.val) % 4 = kt.val; omega)
  rw [e1, e2]

/-- What a flushing point writes back is its block of the result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨-, -, -, -, -, -, -, -, -, -, e0, e1⟩ := idx_facts t
  rw [Cert.KernelIdeal.Value.flushed5]
  funext y
  obtain ⟨r, n, rfl⟩ : ∃ (r : Fin 16) (n : Fin 1792), y = ix2 r n := ⟨y 0, y 1, eq_ix2 y⟩
  show (outsAt0 m c t.val t.isLt).1 (ix2 r n) = result m c (((cfg0.win 5).blk t).view.emb (ix2 r n))
  rw [out_apply m c t h3]
  congr 1
  funext a
  apply Fin.ext
  match a with
  | ⟨0, _⟩ => show r.val = win0_5.index t (0 : Fin 2) * 16 + 1 * r.val; rw [e0]; omega
  | ⟨1, _⟩ => show t.val / 4 * 1792 + n.val = win0_5.index t (1 : Fin 2) * 1792 + 1 * n.val; rw [e1]; omega

theorem mem_blk (t : Fin cfg0.N) (i : S16x14336.Idx) :
    i ∈ ((cfg0.win 5).blk t).view.set ↔ ∀ a : Fin 2, win0_5.index t a * S16x1792.size a ≤ (i a).val ∧ (i a).val < win0_5.index t a * S16x1792.size a + S16x1792.size a := by
  show i ∈ ((View.whole main_v0).slice (win0_5.rect t)).set ↔ _
  rw [View.set_slice_whole, Rect.mem_set_unit]
  exact Iff.rfl

/-- The array after the run is the result: column block `q` is written back by the last point of its run. -/
theorem final (c : Dev nD) : (dats m 0 c).arrAt 5 cfg0.N = result m c :=
  (dats m 0 c).arrAt_eq_of_cover 5 (result m c) (flushed_eq m c) fun i => by
    have hN := N_eq
    have hi0 : (i 0).val < 16 := (i 0).isLt
    have hi1 : (i 1).val < 14336 := (i 1).isLt
    let t : Fin cfg0.N := ⟨4 * ((i 1).val / 1792) + 3, by omega⟩
    obtain ⟨-, -, -, -, -, -, -, -, -, -, e0, e1⟩ := idx_facts t
    have ht : t.val = 4 * ((i 1).val / 1792) + 3 := rfl
    refine ⟨t, (flush0_5 t).mpr (by rw [ht]; omega), ?_⟩
    rw [mem_blk]
    intro a
    match a with
    | ⟨0, _⟩ => show win0_5.index t (0 : Fin 2) * 16 ≤ (i 0).val ∧ (i 0).val < win0_5.index t (0 : Fin 2) * 16 + 16; rw [e0]; omega
    | ⟨1, _⟩ => show win0_5.index t (1 : Fin 2) * 1792 ≤ (i 1).val ∧ (i 1).val < win0_5.index t (1 : Fin 2) * 1792 + 1792; rw [e1, ht]; omega

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Fold

end
-- ==== Proof.RefIsSpec.lean ====
/-
  The reference program computes the quantised product as specified: entry `(r, n)` of its result is the sum over
  the 4096 weight rows `k` of `x (r, k)` times `(code (k, n) − zero (k / 128, n)) · scale (k / 128, n)`, the code
  assembled from the two packed planes exactly as the specification assembles it.

  The work is index bookkeeping. Flattening a `(G, P, N)` array to `(G · P, N)` row-major sends row `k`, column `n`
  to `(k / P, k % P, n)`: the flat position is `k · N + n` with `n < N`, so dividing by `P · N` gives `k / P`,
  dividing by `N` and reducing mod `P` gives `k % P`, and reducing mod `N` gives `n`. With `P = 32, 16, 128` this
  identifies the one-bit plane's word and bit position, the two-bit plane's word and field position, and the group of
  scale and zero point. The shift amounts are then literally those of the specification (a position times a field
  width), and the host's 32-bit shifts are those of the vector unit.
-/
import proofs.«411462_j90409061580808_2_alg».proof.Proof.Gen.ReferenceIdeal.Read
import proofs.«411462_j90409061580808_2_alg».proof.Proof.Spec
import Idealize.ShloMosaic.Lib.KernelVsHost

noncomputable section

open scoped BigOperators

namespace Cert.ReferenceIdeal.RefValue

open Cert.ReferenceIdeal Cert.ReferenceIdeal.Gen Idealize.ShloMosaic Idealize.ShloMosaic.ValueIdx

/-! ## Where each layout operation reads -/

/-- The product's left operand at `(r, n)`, summand `k`, is read at `(r, k)`. -/
theorem lidx_eq (r : Fin 16) (n : Fin 14336) (k : Fin 4096) :
    Read.lidx_main_v32 (ix2 r n) k = ix2 r k :=
  funext fun a => Fin.ext (by match a with | ⟨0, _⟩ => rfl | ⟨1, _⟩ => rfl)

/-- The product's right operand at `(r, n)`, summand `k`, is read at `(k, n)`. -/
theorem ridx_eq (r : Fin 16) (n : Fin 14336) (k : Fin 4096) :
    Read.ridx_main_v32 (ix2 r n) k = ix2 k n :=
  funext fun a => Fin.ext (by match a with | ⟨0, _⟩ => rfl | ⟨1, _⟩ => rfl)

/-- Row `k` of the flattened `(128, 32, N)` array is word `k / 32`, position `k % 32`. -/
theorem idx10_eq (k : Fin 4096) (n : Fin 14336) :
    Read.idx_main_v10 (ix2 k n)
      = ix3 (⟨k.val / 32, by omega⟩ : Fin 128) (⟨k.val % 32, by omega⟩ : Fin 32) n :=
  funext fun a => Fin.ext (by
    have hk := k.isLt
    have hn := n.isLt
    match a with
    | ⟨0, _⟩ => show (k.val * 14336 + n.val) / 458752 = k.val / 32; omega
    | ⟨1, _⟩ => show (k.val * 14336 + n.val) / 14336 % 32 = k.val % 32; omega
    | ⟨2, _⟩ => show (k.val * 14336 + n.val) % 14336 = n.val; omega)

/-- Row `k` of the flattened `(256, 16, N)` array is word `k / 16`, position `k % 16`. -/
theorem idx21_eq (k : Fin 4096) (n : Fin 14336) :
    Read.idx_main_v21 (ix2 k n)
      = ix3 (⟨k.val / 16, by omega⟩ : Fin 256) (⟨k.val % 16, by omega⟩ : Fin 16) n :=
  funext fun a => Fin.ext (by
    have hk := k.isLt
    have hn := n.isLt
    match a with
    | ⟨0, _⟩ => show (k.val * 14336 + n.val) / 229376 = k.val / 16; omega
    | ⟨1, _⟩ => show (k.val * 14336 + n.val) / 14336 % 16 = k.val % 16; omega
    | ⟨2, _⟩ => show (k.val * 14336 + n.val) % 14336 = n.val; omega)

/-- Row `k` of the flattened `(32, 128, N)` array of scales is group `k / 128`, position `k % 128`. -/
theorem idx27_eq (k : Fin 4096) (n : Fin 14336) :
    Read.idx_main_v27 (ix2 k n)
      = ix3 (⟨k.val / 128, by omega⟩ : Fin 32) (⟨k.val % 128, by omega⟩ : Fin 128) n :=
  funext fun a => Fin.ext (by
    have hk := k.isLt
    have hn := n.isLt
    match a with
    | ⟨0, _⟩ => show (k.val * 14336 + n.val) / 1835008 = k.val / 128; omega
    | ⟨1, _⟩ => show (k.val * 14336 + n.val) / 14336 % 128 = k.val % 128; omega
    | ⟨2, _⟩ => show (k.val * 14336 + n.val) % 14336 = n.val; omega)

/-- The same for the flattened array of zero points. -/
theorem idx29_eq (k : Fin 4096) (n : Fin 14336) :
    Read.idx_main_v29 (ix2 k n)
      = ix3 (⟨k.val / 128, by omega⟩ : Fin 32) (⟨k.val % 128, by omega⟩ : Fin 128) n :=
  funext fun a => Fin.ext (by
    have hk := k.isLt
    have hn := n.isLt
    match a with
    | ⟨0, _⟩ => show (k.val * 14336 + n.val) / 1835008 = k.val / 128; omega
    | ⟨1, _⟩ => show (k.val * 14336 + n.val) / 14336 % 128 = k.val % 128; omega
    | ⟨2, _⟩ => show (k.val * 14336 + n.val) % 14336 = n.val; omega)

/-- The one-bit plane broadcast along the positions reads word `(a, n)` whatever the position. -/
theorem idx4_5_eq (a : Fin 128) (b : Fin 32) (n : Fin 14336) :
    Read.idx_main_v4 (Read.idx_main_v5 (ix3 a b n)) = ix2 a n :=
  funext fun d => Fin.ext (by match d with | ⟨0, _⟩ => rfl | ⟨1, _⟩ => rfl)

/-- The two-bit plane broadcast along the positions reads word `(a, n)` whatever the position. -/
theorem idx15_16_eq (a : Fin 256) (b : Fin 16) (n : Fin 14336) :
    Read.idx_main_v15 (Read.idx_main_v16 (ix3 a b n)) = ix2 a n :=
  funext fun d => Fin.ext (by match d with | ⟨0, _⟩ => rfl | ⟨1, _⟩ => rfl)

/-- The scales broadcast along a group's rows read `(g, n)` whatever the row. -/
theorem idx26_eq (g : Fin 32) (j : Fin 128) (n : Fin 14336) :
    Read.idx_main_v26 (ix3 g j n) = ix2 g n :=
  funext fun d => Fin.ext (by match d with | ⟨0, _⟩ => rfl | ⟨1, _⟩ => rfl)

/-- The zero points broadcast along a group's rows read `(g, n)` whatever the row. -/
theorem idx28_eq (g : Fin 32) (j : Fin 128) (n : Fin 14336) :
    Read.idx_main_v28 (ix3 g j n) = ix2 g n :=
  funext fun d => Fin.ext (by match d with | ⟨0, _⟩ => rfl | ⟨1, _⟩ => rfl)

/-! ## The stages at row `k`, column `n` -/

/-- The unpacked one-bit plane: bit `k % 32` of word `(k / 32, n)`. -/
theorem b1_eq (x1 : IVec S128x14336 32) (k : Fin 4096) (n : Fin 14336) :
    Read.val_main_v10 (F := Ideal) x1 (ix2 k n)
      = IntOp.andi (IntOp.shrsi .vector (x1 (ix2 (⟨k.val / 32, by omega⟩ : Fin 128) n))
          (IntOp.muli (BitVec.ofNat 32 (k.val % 32)) 1#32)) 1#32 := by
  rw [Read.val_main_v10_apply, idx10_eq, Read.val_main_v9_apply, Read.val_main_v7_apply, Read.val_main_v5_apply,
    Read.val_main_v4_apply, idx4_5_eq, Read.val_main_v6_apply, Read.val_main_v3_apply, Read.val_main_v2_apply,
    Read.val_main_v0_apply, Read.val_main_v1_apply, Read.val_main_c_apply, Read.val_main_v8_apply,
    Read.val_main_c_0_apply, shrsi_unit .host .vector]

/-- The unpacked two-bit plane: the two bits at position `2 · (k % 16)` of word `(k / 16, n)`. -/
theorem b2_eq (x2 : IVec S256x14336 32) (k : Fin 4096) (n : Fin 14336) :
    Read.val_main_v21 (F := Ideal) x2 (ix2 k n)
      = IntOp.andi (IntOp.shrsi .vector (x2 (ix2 (⟨k.val / 16, by omega⟩ : Fin 256) n))
          (IntOp.muli (BitVec.ofNat 32 (k.val % 16)) 2#32)) 3#32 := by
  rw [Read.val_main_v21_apply, idx21_eq, Read.val_main_v20_apply, Read.val_main_v18_apply, Read.val_main_v16_apply,
    Read.val_main_v15_apply, idx15_16_eq, Read.val_main_v17_apply, Read.val_main_v14_apply, Read.val_main_v13_apply,
    Read.val_main_v11_apply, Read.val_main_v12_apply, Read.val_main_c_1_apply, Read.val_main_v19_apply,
    Read.val_main_c_2_apply, shrsi_unit .host .vector]

/-- The scale of row `k`, column `n`, is that of group `k / 128`. -/
theorem s_eq (x3 : FVec Ideal S32x14336 .f32) (k : Fin 4096) (n : Fin 14336) :
    Read.val_main_v27 (F := Ideal) x3 (ix2 k n) = x3 (ix2 (⟨k.val / 128, by omega⟩ : Fin 32) n) := by
  rw [Read.val_main_v27_apply, idx27_eq, Read.val_main_v26_apply, idx26_eq]

/-- The zero point of row `k`, column `n`, is that of group `k / 128`. -/
theorem z_eq (x4 : FVec Ideal S32x14336 .f32) (k : Fin 4096) (n : Fin 14336) :
    Read.val_main_v29 (F := Ideal) x4 (ix2 k n) = x4 (ix2 (⟨k.val / 128, by omega⟩ : Fin 32) n) := by
  rw [Read.val_main_v29_apply, idx29_eq, Read.val_main_v28_apply, idx28_eq]

/-- The assembled code of row `k`, column `n`, is the specification's. -/
theorem q_eq (x1 : IVec S128x14336 32) (x2 : IVec S256x14336 32) (k : Fin 4096) (n : Fin 14336) :
    Read.val_main_v24 (F := Ideal) x1 x2 (ix2 k n) = Cert.QuantSpec.qAt x1 x2 k n := by
  rw [Read.val_main_v24_apply, Read.val_main_v23_apply, Read.val_main_v22_apply, Read.val_main_c_3_apply,
    b1_eq, b2_eq, shli_unit .host .vector]
  rfl

/-- The dequantised weight of row `k`, column `n`, is the specification's. -/
theorem w_eq (x1 : IVec S128x14336 32) (x2 : IVec S256x14336 32) (x3 x4 : FVec Ideal S32x14336 .f32)
    (k : Fin 4096) (n : Fin 14336) :
    Read.val_main_v31 (F := Ideal) x1 x2 x3 x4 (ix2 k n) = Cert.QuantSpec.wAt x1 x2 x3 x4 k n := by
  rw [Read.val_main_v31_apply, Read.val_main_v30_apply, Read.val_main_v25_apply, q_eq, s_eq, z_eq]
  rfl

/-! ## The result -/

theorem ref_eq (x0 : FVec Ideal S16x4096 .f32) (x1 : IVec S128x14336 32) (x2 : IVec S256x14336 32)
    (x3 x4 : FVec Ideal S32x14336 .f32) :
    Cert.ReferenceIdeal.Read.val_main_v32 (F := Ideal) x0 x1 x2 x3 x4 = Cert.QuantSpec.G x0 x1 x2 x3 x4 := by
  funext i
  obtain ⟨r, n, rfl⟩ : ∃ (r : Fin 16) (n : Fin 14336), i = ix2 r n := ⟨i 0, i 1, eq_ix2 i⟩
  rw [Read.val_main_v32_apply]
  show _ = ∑ k : Fin 4096, x0 (ix2 r k) * Cert.QuantSpec.wAt x1 x2 x3 x4 k n
  refine Finset.sum_congr rfl fun k _ => ?_
  rw [lidx_eq, ridx_eq, w_eq]

end Cert.ReferenceIdeal.RefValue

end
-- ==== Proof.Algebra.lean ====
/-
  On finite entries the sum accumulated group by group is the product with the dequantised weights: within a group
  of 128 rows, with scale `s` and zero point `z`,
  `Σ_k x_k · ((q_k − z) · s) = (Σ_k x_k q_k) · s − (Σ_k x_k) · (z · s)` by distributivity over the reals, and the
  4096 rows are the 4 × 8 groups of 128 laid end to end.
-/
import proofs.«411462_j90409061580808_2_alg».proof.Proof.Spec
import Mathlib.Data.EReal.Operations
import Mathlib.Data.Fintype.BigOperators
import Mathlib.Algebra.BigOperators.Fin
import Mathlib.Logic.Equiv.Fin.Basic

noncomputable section

open scoped BigOperators

namespace Cert.QuantSpec

open Idealize.ShloMosaic Idealize.ShloMosaic.ValueIdx

/-- The coercion of the reals into the extended reals commutes with finite sums. -/
private theorem coe_real_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The group of weight row `k`. -/
private def grp (k : Fin 4096) : Fin 32 := ⟨k.val / 128, by omega⟩

/-- Row `j` of group `g` of tile `kt` lies in group `kt · 8 + g`. -/
private theorem grp_rowOf (kt : Fin 4) (g : Fin 8) (j : Fin 128) : grp (rowOf kt g j) = groupOf kt g := by
  apply Fin.ext
  simp only [grp, rowOf, groupOf]
  omega

/-- The 4096 rows are the 4 tiles of 8 groups of 128 rows, laid end to end. -/
private def rowEquiv : Fin 4 × Fin 8 × Fin 128 ≃ Fin 4096 where
  toFun p := rowOf p.1 p.2.1 p.2.2
  invFun k := (⟨k.val / 1024, by omega⟩, ⟨k.val % 1024 / 128, by omega⟩, ⟨k.val % 128, Nat.mod_lt _ (by norm_num)⟩)
  left_inv p := by
    obtain ⟨kt, g, j⟩ := p
    simp only [rowOf, Prod.mk.injEq]
    refine ⟨Fin.ext ?_, Fin.ext ?_, Fin.ext ?_⟩ <;> simp only <;> omega
  right_inv k := by
    apply Fin.ext
    simp only [rowOf]
    omega

/-- A sum over the rows, taken tile by tile and group by group. -/
private theorem sum_rows (f : Fin 4096 → ℝ) :
    ∑ k : Fin 4096, f k = ∑ kt : Fin 4, ∑ g : Fin 8, ∑ j : Fin 128, f (rowOf kt g j) := by
  rw [← Equiv.sum_comp rowEquiv f, Fintype.sum_prod_type]
  refine Finset.sum_congr rfl fun kt _ => ?_
  rw [Fintype.sum_prod_type]
  rfl

/-- The identity over the reals: within each group the scale and the zero point are constant, so the product with
    the dequantised weights splits into the dot product with the codes, scaled, minus the row's sum times
    `zero · scale`. -/
private theorem tiled_eq_ref_real (X Q : Fin 4096 → ℝ) (S Z : Fin 32 → ℝ) :
    ∑ kt : Fin 4, ∑ g : Fin 8,
        ((∑ j : Fin 128, X (rowOf kt g j) * Q (rowOf kt g j)) * S (groupOf kt g)
          - (∑ j : Fin 128, X (rowOf kt g j)) * (Z (groupOf kt g) * S (groupOf kt g)))
      = ∑ k : Fin 4096, X k * ((Q k - Z (grp k)) * S (grp k)) := by
  rw [sum_rows]
  refine Finset.sum_congr rfl fun kt _ => Finset.sum_congr rfl fun g _ => ?_
  rw [Finset.sum_mul, Finset.sum_mul, ← Finset.sum_sub_distrib]
  refine Finset.sum_congr rfl fun j _ => ?_
  rw [grp_rowOf]
  ring

theorem tiled_eq_ref (xr : SX.Idx → ℝ) (w1 : IVec SW1 32) (w2 : IVec SW2 32) (sr zr : SG.Idx → ℝ) (r : Fin 16) (n : Fin 14336) :
    tiledForm (fun i => (xr i : EReal)) w1 w2 (fun i => (sr i : EReal)) (fun i => (zr i : EReal)) r n
      = refForm (fun i => (xr i : EReal)) w1 w2 (fun i => (sr i : EReal)) (fun i => (zr i : EReal)) r n := by
  have h := tiled_eq_ref_real (fun k => xr (ix2 r k)) (fun k => ((qAt w1 w2 k n).toInt : ℝ))
    (fun g => sr (ix2 g n)) (fun g => zr (ix2 g n))
  have h' := congrArg (fun t : ℝ => (t : EReal)) h
  simp only [coe_real_sum, EReal.coe_sub, EReal.coe_mul] at h'
  simpa only [tiledForm, groupTerm, refForm, wAt, qVal, grp] using h'

end Cert.QuantSpec

end
-- ==== Proof.Finite.lean ====
/-
  Under the precondition every entry of `x`, of the scales and of the zero points is a real number: the precondition
  says each absolute value is below `+∞`, which excludes both infinities.
-/
import proofs.«411462_j90409061580808_2_alg».proof.Pre_finite_inputs
import proofs.«411462_j90409061580808_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The word `0x7F800000` read as an extended real is `+∞`. -/
theorem ofBits_inf : Ideal.ofBits .f32 0x7F800000#32 = ⊤ := by simp [Ideal.ofBits, Ideal.ieee]

/-- One value: if `|x| = max x (-x)` compares strictly below `+∞`, then `x` is neither infinity. -/
theorem ne_top_bot_of_abs_lt_inf (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  rw [max_lt_iff] at hlt
  refine ⟨ne_of_lt hlt.1, ?_⟩
  intro hb
  rw [hb] at hlt
  simp at hlt

/-- One array: if every entry's absolute value compares below `+∞`, the array is the coercion of a real-valued one. -/
theorem reals_of_all_abs_lt_inf (S : Shape) (a : FVec Ideal S .f32)
    (h : ∀ i, FloatOps.cmpf .olt (FloatOps.hostAbsf (a i)) (FloatOps.ofBits (F := Ideal) .f32 0x7F800000#32) = 1#1) :
    ∃ r : S.Idx → ℝ, a = fun i => (r i : EReal) := by
  refine ⟨fun i => EReal.toReal (a i), funext fun i => ?_⟩
  obtain ⟨h1, h2⟩ := ne_top_bot_of_abs_lt_inf (a i) (h i)
  exact (EReal.coe_toReal h1 h2).symm

theorem reals_of_pre (a0 : FVec Ideal S16x4096 .f32) (a1 : IVec S128x14336 32) (a2 : IVec S256x14336 32)
    (a3 a4 : FVec Ideal S32x14336 .f32)
    (h : Cert.Pre_finite_inputs.fn (F := Ideal) a0 a1 a2 a3 a4 = fun _ => 1#1) :
    (∃ xr : S16x4096.Idx → ℝ, a0 = fun i => (xr i : EReal))
      ∧ (∃ sr : S32x14336.Idx → ℝ, a3 = fun i => (sr i : EReal))
      ∧ (∃ zr : S32x14336.Idx → ℝ, a4 = fun i => (zr i : EReal)) := by
  -- the result of the reduction over all axes has a single index
  haveI : Subsingleton S_.Idx := ⟨fun a b => funext fun d => d.elim0⟩
  have h0 := congrFun h ValueIdx.ix0
  unfold Cert.Pre_finite_inputs.fn at h0
  dsimp only at h0
  obtain ⟨h01, h4⟩ := IntOp.andi_eq_one.1 h0
  obtain ⟨h0', h3⟩ := IntOp.andi_eq_one.1 h01
  have e0 := Host.reduce_andi_all _ _ _ _ _ h0'
  have e3 := Host.reduce_andi_all _ _ _ _ _ h3
  have e4 := Host.reduce_andi_all _ _ _ _ _ h4
  exact ⟨reals_of_all_abs_lt_inf _ a0 e0, reals_of_all_abs_lt_inf _ a3 e3, reals_of_all_abs_lt_inf _ a4 e4⟩

end Cert.FiniteInputs

end
-- ==== Proof.lean ====
/-
  The certificate of a 3-bit quantised matrix product.

  The kernel multiplies `x` (16 × 4096) by a weight matrix (4096 × 14336) that is never formed: each weight is a
  3-bit code, packed in a one-bit and a two-bit plane of 32-bit words, minus its group's zero point, times its group's
  scale (32 groups of 128 rows). The reference unpacks the planes, dequantises every weight and takes one matrix
  product. The kernel walks 8 column blocks × 4 row tiles; per tile it visits 8 groups and adds, for each, the
  product of the slice of `x` with the group's codes, scaled, minus the slice's row sums times `zero · scale`.

  The two results are the same function of the arguments on finite inputs:
    * the reference's result is `QuantSpec.G`, entry by entry the sum over the 4096 rows (Proof/RefIsSpec.lean);
    * the kernel's result array is `Fold.result`, entry by entry the sum over tiles and groups of the group terms
      (Proof/Group.lean, GroupAt.lean, Step.lean, StepAt.lean, Fold.lean);
    * within a group `Σ x (q − z) s = s Σ x q − (Σ x) z s`, which is distributivity over the reals and is where
      finiteness of `x`, the scales and the zero points is used (Proof/Algebra.lean, Proof/Finite.lean).
  The three frames are the generated runs; the idealisation rewrote nothing.
-/
import proofs.«411462_j90409061580808_2_alg».proof.Defs
import proofs.«411462_j90409061580808_2_alg».proof.Proof.Gen.Kernel
import proofs.«411462_j90409061580808_2_alg».proof.Proof.Gen.Kernel.Skeleton
import proofs.«411462_j90409061580808_2_alg».proof.Proof.Gen.Kernel.Launch
import proofs.«411462_j90409061580808_2_alg».proof.Proof.Gen.Kernel.Points
import proofs.«411462_j90409061580808_2_alg».proof.Proof.Gen.Kernel.Frame
import proofs.«411462_j90409061580808_2_alg».proof.Proof.Gen.KernelIdeal
import proofs.«411462_j90409061580808_2_alg».proof.Proof.Gen.KernelIdeal.Skeleton
import proofs.«411462_j90409061580808_2_alg».proof.Proof.Gen.KernelIdeal.Launch
import proofs.«411462_j90409061580808_2_alg».proof.Proof.Gen.KernelIdeal.Points
import proofs.«411462_j90409061580808_2_alg».proof.Proof.Gen.KernelIdeal.Frame
import proofs.«411462_j90409061580808_2_alg».proof.Proof.Gen.ReferenceIdeal
import proofs.«411462_j90409061580808_2_alg».proof.Proof.Gen.Pre_finite_inputs
import proofs.«411462_j90409061580808_2_alg».proof.Proof.Gen.KernelIdeal.Value
import proofs.«411462_j90409061580808_2_alg».proof.Proof.Gen.ReferenceIdeal.Run
import proofs.«411462_j90409061580808_2_alg».proof.Proof.Gen.ReferenceIdeal.Read
import proofs.«411462_j90409061580808_2_alg».proof.Proof.Fold
import proofs.«411462_j90409061580808_2_alg».proof.Proof.RefIsSpec
import proofs.«411462_j90409061580808_2_alg».proof.Proof.Algebra
import proofs.«411462_j90409061580808_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same array: the reference's is the sum over the weight rows, the kernel's the sum over
    tiles and groups, and on finite inputs these agree entry by entry. -/
theorem algebraic : Cert.algebraic_KernelIdeal_ReferenceIdeal := by
  intro m ρ m' ρ' hpre hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_eq,
    (hagree c).1, (hagree c).2.1, (hagree c).2.2.1, (hagree c).2.2.2.1, (hagree c).2.2.2.2]
  obtain ⟨⟨xr, hx⟩, ⟨sr, hs⟩, ⟨zr, hz⟩⟩ := Cert.FiniteInputs.reals_of_pre _ _ _ _ _ (hpre c)
  funext i
  have key := Cert.QuantSpec.tiled_eq_ref xr
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) sr zr (i 0) (i 1)
  rw [← hx, ← hs, ← hz] at key
  exact key.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
